-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128x128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S5000x128 : Shape := ⟨2, ![5000, 128]⟩
abbrev S650000x128 : Shape := ⟨2, ![650000, 128]⟩

abbrev nBuf : Space → Nat
  | .hbm => 103
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x128, .f32⟩
  | .hbm, ⟨77, _⟩ => ⟨S650000x1, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S50000x128, .f32⟩
  | .hbm, ⟨82, _⟩ => ⟨S650000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S650000, .i32⟩
  | .hbm, ⟨88, _⟩ => ⟨S650000, .i1⟩
  | .hbm, ⟨89, _⟩ => ⟨S_, .i32⟩
  | .hbm, ⟨90, _⟩ => ⟨S650000, .i32⟩
  | .hbm, ⟨91, _⟩ => ⟨S650000, .i32⟩
  | .hbm, ⟨92, _⟩ => ⟨S650000, .i32⟩
  | .hbm, ⟨93, _⟩ => ⟨S650000x1, .i32⟩
  | .hbm, ⟨94, _⟩ => ⟨S650000x128, .f32⟩
  | .hbm, ⟨95, _⟩ => ⟨S650000x1, .f32⟩
  | .hbm, ⟨96, _⟩ => ⟨S650000x128, .f32⟩
  | .hbm, ⟨97, _⟩ => ⟨S650000x128, .f32⟩
  | .hbm, ⟨98, _⟩ => ⟨S_, .f32⟩
  | .hbm, ⟨99, _⟩ => ⟨S50000x128, .f32⟩
  | .hbm, ⟨100, _⟩ => ⟨S650000x1, .i32⟩
  | .hbm, ⟨101, _⟩ => ⟨S50000x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S1x128 : S_.BroadcastsInDim S1x128 (![] : Fin 0 → Fin S1x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S50000x128, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S650000x1, .f32⟩
  | .hbm, ⟨55, _⟩ => ⟨S650000x128, .f32⟩
  | .hbm, ⟨56, _⟩ => ⟨S650000x128, .f32⟩
  | .hbm, ⟨57, _⟩ => ⟨S_, .f32⟩
  | .hbm, ⟨58, _⟩ => ⟨S50000x128, .f32⟩
  | .hbm, ⟨59, _⟩ => ⟨S650000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x1, .f32⟩
  | .hbm, ⟨77, _⟩ => ⟨S650000x128, .f32⟩
  | .hbm, ⟨78, _⟩ => ⟨S650000x128, .f32⟩
  | .hbm, ⟨79, _⟩ => ⟨S_, .f32⟩
  | .hbm, ⟨80, _⟩ => ⟨S50000x128, .f32⟩
  | .hbm, ⟨81, _⟩ => ⟨S650000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .i32⟩
  | .hbm, ⟨90, _⟩ => ⟨S650000, .i32⟩
  | .hbm, ⟨91, _⟩ => ⟨S650000, .i1⟩
  | .hbm, ⟨92, _⟩ => ⟨S_, .i32⟩
  | .hbm, ⟨93, _⟩ => ⟨S650000, .i32⟩
  | .hbm, ⟨94, _⟩ => ⟨S650000, .i32⟩
  | .hbm, ⟨95, _⟩ => ⟨S650000, .i32⟩
  | .hbm, ⟨96, _⟩ => ⟨S650000x1, .i32⟩
  | .hbm, ⟨97, _⟩ => ⟨S650000x128, .f32⟩
  | .hbm, ⟨98, _⟩ => ⟨S650000x1, .f32⟩
  | .hbm, ⟨99, _⟩ => ⟨S650000x128, .f32⟩
  | .hbm, ⟨100, _⟩ => ⟨S650000x128, .f32⟩
  | .hbm, ⟨101, _⟩ => ⟨S_, .f32⟩
  | .hbm, ⟨102, _⟩ => ⟨S50000x128, .f32⟩
  | .hbm, ⟨103, _⟩ => ⟨S650000x1, .i32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Spec.lean ====
import proofs.«124393_j38714835206720_1_alg».proof.Proof.Gen.ReferenceIdeal.Read

/-! The network both programs compute, as ONE function of the nine argument arrays, written over the reference's own
    stages.  With self loops appended to the edge list, `row` and `col` are the edges' end points, `deg` counts the edges
    into each node and `norm e = deg(row e)^(-1/2) · deg(col e)^(-1/2)`.  A layer sends node features `x` to
    `agg (x · W)`, where `agg h` adds `norm e · h[row e]` into row `col e` for every edge `e`; the first two layers add
    the residual `x · R` and clamp below at zero, the third has neither, and the head is `x ↦ x · Wh + bh`.
    The edge structure enters only through `agg`, which is carried as one opaque function of `h` and the edge list. -/

set_option maxRecDepth 16384

noncomputable section

namespace Cert.Gcn

open Cert.ReferenceIdeal Cert.ReferenceIdeal.Gen Cert.ReferenceIdeal.Read Idealize.ShloMosaic Idealize.ShloMosaic.TcCoe

/-- Node features, f32[50000, 128], as extended reals. -/
abbrev Feat := FVec Ideal S50000x128 .f32
/-- A weight matrix, f32[128, 128]. -/
abbrev Wt := FVec Ideal S128x128 .f32
/-- The edge list, i32[2, 600000]. -/
abbrev Edges := (⟨S2x600000, .i32⟩ : BufTy).Contents (Elt Ideal)

/-- `x · w`: entry `(n, j)` is the sum over `k` of `x[n, k] · w[k, j]`. -/
def mm (x : Feat) (w : Wt) : Feat := val_main_v28 (F := Ideal) x w

theorem mm_apply (x : Feat) (w : Wt) (i : S50000x128.Idx) :
    mm x w i = ∑ k : Fin 128, x (lidx_main_v28 i k) * w (ridx_main_v28 i k) := val_main_v28_apply x w i

/-- The normalised neighbourhood sum of `h` over the edge list `e` (self loops included). -/
def agg (h : Feat) (e : Edges) : Feat :=
  Host.scatterAdd scatter_S50000x128_S650000x1_S650000x128_1_0_0_1 (val_main_v39 (F := Ideal)) (val_main_v40 (F := Ideal) e)
    (mulf (Host.gather gather_S50000x128_S650000x1_S650000x128_1_0_n_n_0_1_1128 h (val_main_v34 (F := Ideal) e)) (val_main_v37 (F := Ideal) e))

/-- An i32 vector over the 650000 edges (600000 given, 50000 self loops). -/
abbrev EdgeIdx := (⟨S650000, .i32⟩ : BufTy).Contents (Elt Ideal)

/-- `agg` over the edge arrays themselves: the end points `row`, `col` and the weights `nrm`.  A negative row index is
    wrapped by 50000 before the gather, as jnp indexing does. -/
def aggL (h : Feat) (row col : EdgeIdx) (nrm : FVec Ideal S650000 .f32) : Feat :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 col)
    (mulf (Host.gather gather_S50000x128_S650000x1_S650000x128_1_0_n_n_0_1_1128 h
        (broadcastInDim S650000x1 ![0] bcast_S650000_S650000x1_0
          (select (cmpi .slt row (broadcastInDim S650000 ![] bcast_S_S650000 (constantI S_ 32 0#32)))
            (addi row (broadcastInDim S650000 ![] bcast_S_S650000 (constantI S_ 32 50000#32))) row)))
      (broadcastInDim S650000x128 ![0, 1] bcast_S650000x1_S650000x128_0_1 (broadcastInDim S650000x1 ![0] bcast_S650000_S650000x1_0 nrm)))

theorem agg_eq (h : Feat) (e : Edges) :
    agg h e = aggL h (val_main_v3 (F := Ideal) e) (val_main_v6 (F := Ideal) e) (val_main_v27 (F := Ideal) e) := rfl

/-- A row f32[1, 128] spread over the 50000 nodes. -/
def rowsOf (b : FVec Ideal S1x128 .f32) : Feat := broadcastInDim S50000x128 ![0, 1] bcast_S1x128_S50000x128_0_1 b

theorem rowsOf_apply (b : FVec Ideal S1x128 .f32) (i : S50000x128.Idx) : rowsOf b i = b (idx_main_v78 i) := by
  unfold rowsOf
  exact broadcastInDim_apply _ bcast_S1x128_S50000x128_0_1 b i (idx_main_v78 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The clamp below at zero. -/
def relu (a : Feat) : Feat := maximumf a (val_main_call0_v0 (F := Ideal))

/-- One residual layer: `relu (agg (x · w) + x · r)`. -/
def layer (x : Feat) (e : Edges) (w r : Wt) : Feat := relu (addf (agg (mm x w) e) (mm x r))

/-- A bias row f32[128] spread over the 50000 nodes. -/
def biasRows (b : FVec Ideal S128 .f32) : Feat := val_main_v78 (F := Ideal) b

theorem biasRows_eq (b : FVec Ideal S128 .f32) : biasRows b = rowsOf (val_main_v77 (F := Ideal) b) := rfl

/-- The whole network. -/
def net (x : Feat) (e : Edges) (w1 r1 w2 r2 w3 wh : Wt) (bh : FVec Ideal S128 .f32) : Feat :=
  addf (mm (agg (mm (layer (layer x e w1 r1) e w2 r2) w3) e) wh) (biasRows bh)

/-- The reference's first layer is `layer`. -/
theorem ref_layer1 (x : Feat) (e : Edges) (w1 r1 : Wt) : val_main_v44 (F := Ideal) x e w1 r1 = layer x e w1 r1 := rfl

/-- Its second layer is `layer` of the first. -/
theorem ref_layer2 (x : Feat) (e : Edges) (w1 r1 w2 r2 : Wt) :
    val_main_v61 (F := Ideal) x e w1 r1 w2 r2 = layer (layer x e w1 r1) e w2 r2 := rfl

/-- Its third layer is `agg` of a product. -/
theorem ref_layer3 (x : Feat) (e : Edges) (w1 r1 w2 r2 w3 : Wt) :
    val_main_v75 (F := Ideal) x e w1 r1 w2 r2 w3 = agg (mm (layer (layer x e w1 r1) e w2 r2) w3) e := rfl

/-- The reference computes `net`. -/
theorem ref_net (x : Feat) (e : Edges) (w1 r1 w2 r2 w3 wh : Wt) (bh : FVec Ideal S128 .f32) :
    val_main_v79 (F := Ideal) x e w1 r1 w2 r2 w3 wh bh = net x e w1 r1 w2 r2 w3 wh bh := rfl

end Cert.Gcn

end
-- ==== Proof.KHost.lean ====
import proofs.«124393_j38714835206720_1_alg».proof.Proof.Gen.KernelIdeal.Frame
import proofs.«124393_j38714835206720_1_alg».proof.Proof.Spec
import Idealize.ShloMosaic.Lib.StableHlo.Run

/-! The kernel program's four host stretches, read at ANY contents `W` of the buffers they start from.  The first builds
    the edge arrays from the edge list (end points with the self loops appended, the degree weights), a zero bias row
    and the head's bias as a [1, 128] row; each of the other three takes a projected feature array `h` and leaves the
    normalised neighbourhood sum `aggL h row col nrm` of the edge arrays — the same operations, in the same order, as the
    reference applies. -/

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-- Closes `StableHlo.after ops W b = W b` for a buffer `b` that no operation of the stretch `ops` writes. -/
macro "host_keep" : tactic => `(tactic| (
  refine StableHlo.after_of_forall_not_mem _ _ (List.forall_iff_forall_mem.mp ?_)
  simp only [hostOps0, hostOps1, hostOps3, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt Ideal))

set_option maxHeartbeats 4000000 in
/-- The first stretch leaves the edges' source nodes, self loops appended. -/
theorem host0_row : StableHlo.after hostOps0 W (Proc.devRef .tc main_v3)
    = Cert.ReferenceIdeal.Read.val_main_v3 (F := Ideal) (W (Proc.devRef .tc main_arg1)) := by
  after_results_simp
  rfl

set_option maxHeartbeats 4000000 in
/-- … their target nodes … -/
theorem host0_col : StableHlo.after hostOps0 W (Proc.devRef .tc main_v6)
    = Cert.ReferenceIdeal.Read.val_main_v6 (F := Ideal) (W (Proc.devRef .tc main_arg1)) := by
  after_results_simp
  rfl

set_option maxHeartbeats 4000000 in
/-- … and their degree weights. -/
theorem host0_nrm : StableHlo.after hostOps0 W (Proc.devRef .tc main_v27)
    = Cert.ReferenceIdeal.Read.val_main_v27 (F := Ideal) (W (Proc.devRef .tc main_arg1)) := by
  after_results_simp
  rfl

set_option maxHeartbeats 4000000 in
/-- The zero bias row of the third layer's projection is zero everywhere. -/
theorem host0_zero (j : S1x128.Idx) : (StableHlo.after hostOps0 W (Proc.devRef .tc main_v28) : FVec Ideal S1x128 .f32) j = (0 : EReal) := by
  after_results_simp
  show Ideal.ofBits .f32 0x00000000#32 = 0
  exact Ideal.ofBits_zero_f32

set_option maxHeartbeats 4000000 in
/-- The head's bias as a [1, 128] row: entry `(0, c)` is the bias's entry `c`. -/
theorem host0_bias (j : S1x128.Idx) : (StableHlo.after hostOps0 W (Proc.devRef .tc main_v29) : FVec Ideal S1x128 .f32) j
    = (W (Proc.devRef .tc main_arg8) : FVec Ideal S128 .f32) (Cert.ReferenceIdeal.Read.idx_main_v77 j) := by
  after_results_simp
  show shapeCast S1x128 (W (Proc.devRef .tc main_arg8) : FVec Ideal S128 .f32) _ j = _
  rw [shapeCast_addUnit_apply ![128] (W (Proc.devRef .tc main_arg8) : FVec Ideal S128 .f32)]
  refine congrArg _ ?_
  funext a
  match a with
  | ⟨0, _⟩ => rfl

set_option maxHeartbeats 4000000 in
/-- The second stretch: the first layer's neighbourhood sum. -/
theorem host1_agg : StableHlo.after hostOps1 W (Proc.devRef .tc main_v43)
    = Cert.Gcn.aggL (W (Proc.devRef .tc main_v30_0)) (W (Proc.devRef .tc main_v3)) (W (Proc.devRef .tc main_v6)) (W (Proc.devRef .tc main_v27)) := by
  after_results_simp
  rfl

set_option maxHeartbeats 4000000 in
/-- The third stretch: the second layer's. -/
theorem host3_agg : StableHlo.after hostOps3 W (Proc.devRef .tc main_v58)
    = Cert.Gcn.aggL (W (Proc.devRef .tc main_v45_0)) (W (Proc.devRef .tc main_v3)) (W (Proc.devRef .tc main_v6)) (W (Proc.devRef .tc main_v27)) := by
  after_results_simp
  rfl

set_option maxHeartbeats 4000000 in
/-- The fourth stretch: the third layer's. -/
theorem host5_agg : StableHlo.after hostOps5 W (Proc.devRef .tc main_v73)
    = Cert.Gcn.aggL (W (Proc.devRef .tc main_v60)) (W (Proc.devRef .tc main_v3)) (W (Proc.devRef .tc main_v6)) (W (Proc.devRef .tc main_v27)) := by
  after_results_simp
  rfl

end Cert.KernelIdeal.KHost

end
-- ==== Proof.MatBlock.lean ====
import proofs.«124393_j38714835206720_1_alg».proof.Proof.Gen.KernelIdeal.Skeleton
import proofs.«124393_j38714835206720_1_alg».proof.Proof.Spec
import Idealize.ShloMosaic.Lib.ValueIdx
import Idealize.ShloMosaic.Lib.Pipeline.Value
import Idealize.ShloMosaic.PureOps.Ideal.Laws

/-! A row block times a weight matrix.  The kernels multiply a block of 5000 rows by a 128 × 128 matrix, both narrowed to
    bf16 first (the identity on the extended reals), into a zero accumulator: entry `(r, c)` of the product is the sum
    over `k` of `x[r, k] · w[k, c]`.  When the block holds rows of an array `A` and the matrix is `W`, that is the
    entry of the whole product `A · W` in the block's row of `A`.  The bias kernels then add a row vector spread
    over the rows. -/

set_option maxRecDepth 16384

noncomputable section

namespace Cert.KernelIdeal.MatBlock

open Cert.KernelIdeal Cert.KernelIdeal.Gen Idealize.ShloMosaic Idealize.ShloMosaic.TcCoe

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `r` of the block, column `k`. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Row `k` of the matrix, column `c`. -/
abbrev colAt (j : S5000x128.Idx) (k : Fin 128) : S128x128.Idx := fun a => match a with
  | ⟨0, _⟩ => ⟨k.val, k.isLt⟩
  | ⟨1, _⟩ => ⟨(j 1).val, (j 1).isLt⟩

/-- The block product of the kernels, as they spell it. -/
abbrev blkMul (x : Vec Ideal S5000x128 .f32) (w : Vec Ideal S128x128 .f32) : FVec Ideal S5000x128 .f32 :=
  matmul dot_S5000x128_S128x128_S5000x128_1_0_0_1_n_n none (truncf .bf16 x Cert.KernelIdeal.Facts₀.bitsLt_bf16_f32) (truncf .bf16 w Cert.KernelIdeal.Facts₀.bitsLt_bf16_f32)
    (constant S5000x128 .f32 0x00000000#32)

/-- Its entry `(r, c)` is the sum over `k` of `x[r, k] · w[k, c]`. -/
theorem blkMul_apply (x : FVec Ideal S5000x128 .f32) (w : FVec Ideal S128x128 .f32) (j : S5000x128.Idx) :
    blkMul x w j = ∑ k : Fin 128, x (rowAt j k) * w (colAt j k) := by
  refine (Ideal.matmul_constant_zero_apply dot_S5000x128_S128x128_S5000x128_1_0_0_1_n_n none
    (truncf .bf16 x Cert.KernelIdeal.Facts₀.bitsLt_bf16_f32) (truncf .bf16 w Cert.KernelIdeal.Facts₀.bitsLt_bf16_f32) j).trans ?_
  show ∑ k : dot_S5000x128_S128x128_S5000x128_1_0_0_1_n_n.contr.Idx,
      x (dot_S5000x128_S128x128_S5000x128_1_0_0_1_n_n.lhsIdx j k) * w (dot_S5000x128_S128x128_S5000x128_1_0_0_1_n_n.rhsIdx j k) = _
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_blk_0 _ _).trans hk
    | ⟨1, _⟩ => exact rhs_blk_1 _ _)
  rw [el, er]

/-- When the block's row `r` is row `n` of `A` and the matrix is `W`, the block product's entry `(r, c)` is entry
    `(n, c)` of `A · W`. -/
theorem blkMul_eq_mm (A : Cert.Gcn.Feat) (W : Cert.Gcn.Wt) (x : FVec Ideal S5000x128 .f32) (w : FVec Ideal S128x128 .f32)
    (j : S5000x128.Idx) (i : Cert.ReferenceIdeal.S50000x128.Idx)
    (hx : ∀ k : Fin 128, x (rowAt j k) = A (Cert.ReferenceIdeal.Read.lidx_main_v28 i k))
    (hw : ∀ k : Fin 128, w (colAt j k) = W (Cert.ReferenceIdeal.Read.ridx_main_v28 i k)) :
    blkMul x w j = Cert.Gcn.mm A W i := by
  rw [blkMul_apply, Cert.Gcn.mm_apply]
  exact Finset.sum_congr rfl fun k _ => by rw [hx k, hw k]

end Cert.KernelIdeal.MatBlock

end
-- ==== Proof.Reg0.lean ====
import proofs.«124393_j38714835206720_1_alg».proof.Proof.Gen.KernelIdeal.Frame
import proofs.«124393_j38714835206720_1_alg».proof.Proof.Spec
import proofs.«124393_j38714835206720_1_alg».proof.Proof.MatBlock
import Idealize.ShloMosaic.Lib.Pipeline.Value

/-! Region 0 (the dual projection kernel over ten row blocks of 5000): whatever the buffers hold when the region is
    entered, its two output arrays end at `x · w` and `x · r` of its input array and its two weight matrices.  Point
    `t` stages rows `5000 t … 5000 t + 4999` of `x` and both matrices whole, multiplies, and writes the same rows of the two
    products back; the ten blocks cover the 50000 rows. -/

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two stored values are block products. -/
theorem pay2_eq (x0 : Vec Ideal S5000x128 .f32) (x1 : Vec Ideal S128x128 .f32) : k0_pay2 x0 x1 = MatBlock.blkMul x0 x1 := by
  unfold k0_pay2 k0_pay1
  simp only [shapeCast_self]
theorem pay3_eq (x0 : Vec Ideal S5000x128 .f32) (x2 : Vec Ideal S128x128 .f32) : k0_pay3 x0 x2 = MatBlock.blkMul x0 x2 := by
  unfold k0_pay3 k0_pay1
  simp only [shapeCast_self]

/-- At point `t` the input and both outputs sit on row block `t`; the matrices on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r`, column `k` of the input block at point `t` is row `5000 t + r`, column `k` of the input array. -/
theorem iblk_x (c : Dev nD) (t : Fin cfg0.N) (j : S5000x128.Idx) (k : Fin 128) (i : Cert.ReferenceIdeal.S50000x128.Idx)
    (hi0 : (i 0).val = t.val * 5000 + (j 0).val) :
    (iblk0 V c 0 t : Vec Ideal S5000x128 .f32) (MatBlock.rowAt j k) = (V c main_arg0 : Cert.Gcn.Feat) (Cert.ReferenceIdeal.Read.lidx_main_v28 i k) := by
  obtain ⟨e0, e1, e2, e3, e4, e5, e6, e7, e8, e9⟩ := idx_facts t
  unfold iblk0
  rw [View.read_apply]
  show V c main_arg0 _ = V c main_arg0 _
  refine congrArg _ ?_
  funext a; apply Fin.ext
  match a with
  | ⟨0, _⟩ => show win0_0.index t (0 : Fin 2) * 5000 + 1 * (j 0).val = (i 0).val; omega
  | ⟨1, _⟩ => show win0_0.index t (1 : Fin 2) * 128 + 1 * k.val = k.val; omega

/-- Row `k`, column `c` of the first matrix's block is that entry of the matrix. -/
theorem iblk_w (c : Dev nD) (t : Fin cfg0.N) (j : S5000x128.Idx) (k : Fin 128) (i : Cert.ReferenceIdeal.S50000x128.Idx)
    (hi1 : (i 1).val = (j 1).val) :
    (iblk0 V c 1 t : Vec Ideal S128x128 .f32) (MatBlock.colAt j k) = (V c main_arg2 : Cert.Gcn.Wt) (Cert.ReferenceIdeal.Read.ridx_main_v28 i k) := by
  obtain ⟨e0, e1, e2, e3, e4, e5, e6, e7, e8, e9⟩ := idx_facts t
  unfold iblk0
  rw [View.read_apply]
  show V c main_arg2 _ = V c main_arg2 _
  refine congrArg _ ?_
  funext a; apply Fin.ext
  match a with
  | ⟨0, _⟩ => show win0_1.index t (0 : Fin 2) * 128 + 1 * k.val = k.val; omega
  | ⟨1, _⟩ => show win0_1.index t (1 : Fin 2) * 128 + 1 * (j 1).val = (i 1).val; omega

/-- The same for the second matrix. -/
theorem iblk_r (c : Dev nD) (t : Fin cfg0.N) (j : S5000x128.Idx) (k : Fin 128) (i : Cert.ReferenceIdeal.S50000x128.Idx)
    (hi1 : (i 1).val = (j 1).val) :
    (iblk0 V c 2 t : Vec Ideal S128x128 .f32) (MatBlock.colAt j k) = (V c main_arg3 : Cert.Gcn.Wt) (Cert.ReferenceIdeal.Read.ridx_main_v28 i k) := by
  obtain ⟨e0, e1, e2, e3, e4, e5, e6, e7, e8, e9⟩ := idx_facts t
  unfold iblk0
  rw [View.read_apply]
  show V c main_arg3 _ = V c main_arg3 _
  refine congrArg _ ?_
  funext a; apply Fin.ext
  match a with
  | ⟨0, _⟩ => show win0_2.index t (0 : Fin 2) * 128 + 1 * k.val = k.val; omega
  | ⟨1, _⟩ => show win0_2.index t (1 : Fin 2) * 128 + 1 * (j 1).val = (i 1).val; omega

/-- Where the first output's block at point `t` sits in its array. -/
theorem emb3 (t : Fin cfg0.N) (j : S5000x128.Idx) :
    ((((cfg0.win 3).blk t).view.emb j) 0).val = t.val * 5000 + (j 0).val ∧ ((((cfg0.win 3).blk t).view.emb j) 1).val = (j 1).val := by
  obtain ⟨e0, e1, e2, e3, e4, e5, e6, e7, e8, e9⟩ := idx_facts t
  constructor
  · show win0_3.index t (0 : Fin 2) * 5000 + 1 * (j 0).val = _; omega
  · show win0_3.index t (1 : Fin 2) * 128 + 1 * (j 1).val = _; omega
/-- Where the second output's block sits. -/
theorem emb4 (t : Fin cfg0.N) (j : S5000x128.Idx) :
    ((((cfg0.win 4).blk t).view.emb j) 0).val = t.val * 5000 + (j 0).val ∧ ((((cfg0.win 4).blk t).view.emb j) 1).val = (j 1).val := by
  obtain ⟨e0, e1, e2, e3, e4, e5, e6, e7, e8, e9⟩ := idx_facts t
  constructor
  · show win0_4.index t (0 : Fin 2) * 5000 + 1 * (j 0).val = _; omega
  · show win0_4.index t (1 : Fin 2) * 128 + 1 * (j 1).val = _; omega

/-- What point `t` writes back to the first output is block `t` of `x · w`. -/
theorem flushed3_eq (c : Dev nD) (t : Fin cfg0.N) :
    (dat0 V c).flushed 3 t = ((cfg0.win 3).blk t).view.read (Elt Ideal) (Cert.Gcn.mm (V c main_arg0) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  rw [pay2_eq]
  funext j
  exact MatBlock.blkMul_eq_mm (V c main_arg0) (V c main_arg2) (iblk0 V c 0 t) (iblk0 V c 1 t) j (((cfg0.win 3).blk t).view.emb j)
    (fun k => iblk_x V c t j k (((cfg0.win 3).blk t).view.emb j) (emb3 t j).1)
    (fun k => iblk_w V c t j k (((cfg0.win 3).blk t).view.emb j) (emb3 t j).2)

/-- What point `t` writes back to the second output is block `t` of `x · r`. -/
theorem flushed4_eq (c : Dev nD) (t : Fin cfg0.N) :
    (dat0 V c).flushed 4 t = ((cfg0.win 4).blk t).view.read (Elt Ideal) (Cert.Gcn.mm (V c main_arg0) (V c main_arg3)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  rw [pay3_eq]
  funext j
  exact MatBlock.blkMul_eq_mm (V c main_arg0) (V c main_arg3) (iblk0 V c 0 t) (iblk0 V c 2 t) j (((cfg0.win 4).blk t).view.emb j)
    (fun k => iblk_x V c t j k (((cfg0.win 4).blk t).view.emb j) (emb4 t j).1)
    (fun k => iblk_r V c t j k (((cfg0.win 4).blk t).view.emb j) (emb4 t j).2)

/-- An index of the first output is in point `t`'s block iff each coordinate is in the block's range on its axis. -/
theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30_0).slice (win0_3.rect t)).set ↔ _
  rw [View.set_slice_whole, Rect.mem_set_unit]
  exact Iff.rfl
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_1).slice (win0_4.rect t)).set ↔ _
  rw [View.set_slice_whole, Rect.mem_set_unit]
  exact Iff.rfl

/-- Row `r` lies in the block of point `r / 5000`. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨e0, e1, e2, e3, e4, e5, e6, e7, e8, e9⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨e0, e1, e2, e3, e4, e5, e6, e7, e8, e9⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The two output arrays after the region. -/
theorem final3 (c : Dev nD) : (dat0 V c).arrAt 3 cfg0.N = Cert.Gcn.mm (V c main_arg0) (V c main_arg2) :=
  (dat0 V c).arrAt_eq_of_cover 3 _ (fun t _ => flushed3_eq V c t) cover3
theorem final4 (c : Dev nD) : (dat0 V c).arrAt 4 cfg0.N = Cert.Gcn.mm (V c main_arg0) (V c main_arg3) :=
  (dat0 V c).arrAt_eq_of_cover 4 _ (fun t _ => flushed4_eq V c t) cover4

end Cert.KernelIdeal.Reg0

end
-- ==== Proof.Reg1.lean ====
import proofs.«124393_j38714835206720_1_alg».proof.Proof.Gen.KernelIdeal.Frame
import proofs.«124393_j38714835206720_1_alg».proof.Proof.Spec
import Idealize.ShloMosaic.Lib.Pipeline.Value

/-! Region 1 (the combine kernel over ten row blocks of 5000): whatever the buffers hold when the region is entered,
    its output array ends at `relu (a + b)` of its two input arrays, entry by entry.  Point `t` adds rows
    `5000 t … 5000 t + 4999` of the two inputs, clamps below at zero and writes the same rows back; the ten blocks cover the
    50000 rows. -/

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the two loaded blocks added and clamped below at zero. -/
theorem pay_eq (x0 x1 : Vec Ideal S5000x128 .f32) :
    k1_pay1 x0 x1 = maximumf (addf x0 x1) (broadcast S5000x128 (Scalar.ofBits .f32 0x00000000#32)) := by
  unfold k1_pay1
  simp only [shapeCast_self]

/-- Entry `j` of a block's sum-and-clamp is entry `i` of the arrays' sum-and-clamp when the two blocks hold the arrays'
    entries `i` at `j`. -/
theorem blk_relu (A B : FVec Ideal S50000x128 .f32) (xa xb : Vec Ideal S5000x128 .f32) (j : S5000x128.Idx) (i : S50000x128.Idx)
    (ha : xa j = A i) (hb : xb j = B i) :
    (maximumf (addf xa xb) (broadcast S5000x128 (Scalar.ofBits .f32 0x00000000#32)) : FVec Ideal S5000x128 .f32) j
      = Cert.Gcn.relu (addf A B) i := by
  show FloatOps.maximumf (FloatOps.addf (xa j) (xb j)) (FloatOps.ofBits .f32 0x00000000#32)
    = FloatOps.maximumf (FloatOps.addf (A i) (B i)) (Cert.ReferenceIdeal.Read.val_main_call0_v0 (F := Ideal) i)
  rw [ha, hb, Cert.ReferenceIdeal.Read.val_main_call0_v0_apply, Cert.ReferenceIdeal.Read.val_main_call0_cst_apply]

/-- All three windows sit on row block `t`, column block 0, at point `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Input window 0's block at point `t` holds, at `j`, the array's entry at the output block's index for `j`. -/
theorem iblk_0 (c : Dev nD) (t : Fin cfg1.N) (j : S5000x128.Idx) :
    (iblk1 V c 0 t : Vec Ideal S5000x128 .f32) j = (V c main_v43 : FVec Ideal S50000x128 .f32) (((cfg1.win 2).blk t).view.emb j) := by
  obtain ⟨e0, e1, e2, e3, e4, e5⟩ := idx_facts t
  unfold iblk1
  rw [View.read_apply]
  show V c main_v43 _ = V c main_v43 _
  refine congrArg _ ?_
  funext a; apply Fin.ext
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * (j 1).val = win1_2.index t (1 : Fin 2) * 128 + 1 * (j 1).val; omega

/-- The same for input window 1. -/
theorem iblk_1 (c : Dev nD) (t : Fin cfg1.N) (j : S5000x128.Idx) :
    (iblk1 V c 1 t : Vec Ideal S5000x128 .f32) j = (V c main_v30_1 : FVec Ideal S50000x128 .f32) (((cfg1.win 2).blk t).view.emb j) := by
  obtain ⟨e0, e1, e2, e3, e4, e5⟩ := idx_facts t
  unfold iblk1
  rw [View.read_apply]
  show V c main_v30_1 _ = V c main_v30_1 _
  refine congrArg _ ?_
  funext a; apply Fin.ext
  match a with
  | ⟨0, _⟩ => show win1_1.index t (0 : Fin 2) * 5000 + 1 * (j 0).val = win1_2.index t (0 : Fin 2) * 5000 + 1 * (j 0).val; omega
  | ⟨1, _⟩ => show win1_1.index t (1 : Fin 2) * 128 + 1 * (j 1).val = win1_2.index t (1 : Fin 2) * 128 + 1 * (j 1).val; omega

/-- What point `t` writes back is block `t` of `relu (a + b)` of the two input arrays as the region finds them. -/
theorem flushed_eq (c : Dev nD) (t : Fin cfg1.N) :
    (dat1 V c).flushed 2 t = ((cfg1.win 2).blk t).view.read (Elt Ideal) (Cert.Gcn.relu (addf (V c main_v43) (V c main_v30_1))) := by
  show (cfg1.win 2).cut (grid1.coords t) ((dat1 V c).after 2 t) = _
  rw [after1_2]
  unfold out1_2
  rw [View.canon_unit_zero hz]
  simp only [View.ld_unit_zero (S := S5000x128) hz]
  rw [pay_eq]
  funext j
  exact blk_relu (V c main_v43) (V c main_v30_1) (iblk1 V c 0 t) (iblk1 V c 1 t) j (((cfg1.win 2).blk t).view.emb j)
    (iblk_0 V c t j) (iblk_1 V c t j)

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row `r` lies in the block of point `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region. -/
theorem final (c : Dev nD) : (dat1 V c).arrAt 2 cfg1.N = Cert.Gcn.relu (addf (V c main_v43) (V c main_v30_1)) :=
  (dat1 V c).arrAt_eq_of_cover 2 _ (fun t _ => flushed_eq V c t) cover

end Cert.KernelIdeal.Reg1

end
-- ==== Proof.Reg2.lean ====
import proofs.«124393_j38714835206720_1_alg».proof.Proof.Gen.KernelIdeal.Frame
import proofs.«124393_j38714835206720_1_alg».proof.Proof.Spec
import proofs.«124393_j38714835206720_1_alg».proof.Proof.MatBlock
import Idealize.ShloMosaic.Lib.Pipeline.Value

/-! Region 2 (the dual projection kernel over ten row blocks of 5000): whatever the buffers hold when the region is
    entered, its two output arrays end at `x · w` and `x · r` of its input array and its two weight matrices.  Point
    `t` stages rows `5000 t … 5000 t + 4999` of `x` and both matrices whole, multiplies, and writes the same rows of the two
    products back; the ten blocks cover the 50000 rows. -/

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two stored values are block products. -/
theorem pay2_eq (x0 : Vec Ideal S5000x128 .f32) (x1 : Vec Ideal S128x128 .f32) : k2_pay2 x0 x1 = MatBlock.blkMul x0 x1 := by
  unfold k2_pay2 k2_pay1
  simp only [shapeCast_self]
theorem pay3_eq (x0 : Vec Ideal S5000x128 .f32) (x2 : Vec Ideal S128x128 .f32) : k2_pay3 x0 x2 = MatBlock.blkMul x0 x2 := by
  unfold k2_pay3 k2_pay1
  simp only [shapeCast_self]

/-- At point `t` the input and both outputs sit on row block `t`; the matrices on their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `r`, column `k` of the input block at point `t` is row `5000 t + r`, column `k` of the input array. -/
theorem iblk_x (c : Dev nD) (t : Fin cfg2.N) (j : S5000x128.Idx) (k : Fin 128) (i : Cert.ReferenceIdeal.S50000x128.Idx)
    (hi0 : (i 0).val = t.val * 5000 + (j 0).val) :
    (iblk2 V c 0 t : Vec Ideal S5000x128 .f32) (MatBlock.rowAt j k) = (V c main_v44 : Cert.Gcn.Feat) (Cert.ReferenceIdeal.Read.lidx_main_v28 i k) := by
  obtain ⟨e0, e1, e2, e3, e4, e5, e6, e7, e8, e9⟩ := idx_facts t
  unfold iblk2
  rw [View.read_apply]
  show V c main_v44 _ = V c main_v44 _
  refine congrArg _ ?_
  funext a; apply Fin.ext
  match a with
  | ⟨0, _⟩ => show win2_0.index t (0 : Fin 2) * 5000 + 1 * (j 0).val = (i 0).val; omega
  | ⟨1, _⟩ => show win2_0.index t (1 : Fin 2) * 128 + 1 * k.val = k.val; omega

/-- Row `k`, column `c` of the first matrix's block is that entry of the matrix. -/
theorem iblk_w (c : Dev nD) (t : Fin cfg2.N) (j : S5000x128.Idx) (k : Fin 128) (i : Cert.ReferenceIdeal.S50000x128.Idx)
    (hi1 : (i 1).val = (j 1).val) :
    (iblk2 V c 1 t : Vec Ideal S128x128 .f32) (MatBlock.colAt j k) = (V c main_arg4 : Cert.Gcn.Wt) (Cert.ReferenceIdeal.Read.ridx_main_v28 i k) := by
  obtain ⟨e0, e1, e2, e3, e4, e5, e6, e7, e8, e9⟩ := idx_facts t
  unfold iblk2
  rw [View.read_apply]
  show V c main_arg4 _ = V c main_arg4 _
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * (j 1).val = (i 1).val; omega

/-- The same for the second matrix. -/
theorem iblk_r (c : Dev nD) (t : Fin cfg2.N) (j : S5000x128.Idx) (k : Fin 128) (i : Cert.ReferenceIdeal.S50000x128.Idx)
    (hi1 : (i 1).val = (j 1).val) :
    (iblk2 V c 2 t : Vec Ideal S128x128 .f32) (MatBlock.colAt j k) = (V c main_arg5 : Cert.Gcn.Wt) (Cert.ReferenceIdeal.Read.ridx_main_v28 i k) := by
  obtain ⟨e0, e1, e2, e3, e4, e5, e6, e7, e8, e9⟩ := idx_facts t
  unfold iblk2
  rw [View.read_apply]
  show V c main_arg5 _ = V c main_arg5 _
  refine congrArg _ ?_
  funext a; apply Fin.ext
  match a with
  | ⟨0, _⟩ => show win2_2.index t (0 : Fin 2) * 128 + 1 * k.val = k.val; omega
  | ⟨1, _⟩ => show win2_2.index t (1 : Fin 2) * 128 + 1 * (j 1).val = (i 1).val; omega

/-- Where the first output's block at point `t` sits in its array. -/
theorem emb3 (t : Fin cfg2.N) (j : S5000x128.Idx) :
    ((((cfg2.win 3).blk t).view.emb j) 0).val = t.val * 5000 + (j 0).val ∧ ((((cfg2.win 3).blk t).view.emb j) 1).val = (j 1).val := by
  obtain ⟨e0, e1, e2, e3, e4, e5, e6, e7, e8, e9⟩ := idx_facts t
  constructor
  · show win2_3.index t (0 : Fin 2) * 5000 + 1 * (j 0).val = _; omega
  · show win2_3.index t (1 : Fin 2) * 128 + 1 * (j 1).val = _; omega
/-- Where the second output's block sits. -/
theorem emb4 (t : Fin cfg2.N) (j : S5000x128.Idx) :
    ((((cfg2.win 4).blk t).view.emb j) 0).val = t.val * 5000 + (j 0).val ∧ ((((cfg2.win 4).blk t).view.emb j) 1).val = (j 1).val := by
  obtain ⟨e0, e1, e2, e3, e4, e5, e6, e7, e8, e9⟩ := idx_facts t
  constructor
  · show win2_4.index t (0 : Fin 2) * 5000 + 1 * (j 0).val = _; omega
  · show win2_4.index t (1 : Fin 2) * 128 + 1 * (j 1).val = _; omega

/-- What point `t` writes back to the first output is block `t` of `x · w`. -/
theorem flushed3_eq (c : Dev nD) (t : Fin cfg2.N) :
    (dat2 V c).flushed 3 t = ((cfg2.win 3).blk t).view.read (Elt Ideal) (Cert.Gcn.mm (V c main_v44) (V c main_arg4)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz]
  rw [pay2_eq]
  funext j
  exact MatBlock.blkMul_eq_mm (V c main_v44) (V c main_arg4) (iblk2 V c 0 t) (iblk2 V c 1 t) j (((cfg2.win 3).blk t).view.emb j)
    (fun k => iblk_x V c t j k (((cfg2.win 3).blk t).view.emb j) (emb3 t j).1)
    (fun k => iblk_w V c t j k (((cfg2.win 3).blk t).view.emb j) (emb3 t j).2)

/-- What point `t` writes back to the second output is block `t` of `x · r`. -/
theorem flushed4_eq (c : Dev nD) (t : Fin cfg2.N) :
    (dat2 V c).flushed 4 t = ((cfg2.win 4).blk t).view.read (Elt Ideal) (Cert.Gcn.mm (V c main_v44) (V c main_arg5)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  rw [pay3_eq]
  funext j
  exact MatBlock.blkMul_eq_mm (V c main_v44) (V c main_arg5) (iblk2 V c 0 t) (iblk2 V c 2 t) j (((cfg2.win 4).blk t).view.emb j)
    (fun k => iblk_x V c t j k (((cfg2.win 4).blk t).view.emb j) (emb4 t j).1)
    (fun k => iblk_r V c t j k (((cfg2.win 4).blk t).view.emb j) (emb4 t j).2)

/-- An index of the first output is in point `t`'s block iff each coordinate is in the block's range on its axis. -/
theorem mem_blk3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v45_0).slice (win2_3.rect t)).set ↔ _
  rw [View.set_slice_whole, Rect.mem_set_unit]
  exact Iff.rfl
theorem mem_blk4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v45_1).slice (win2_4.rect t)).set ↔ _
  rw [View.set_slice_whole, Rect.mem_set_unit]
  exact Iff.rfl

/-- Row `r` lies in the block of point `r / 5000`. -/
theorem cover3 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨e0, e1, e2, e3, e4, e5, e6, e7, e8, e9⟩ := idx_facts t
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega
theorem cover4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨e0, e1, e2, e3, e4, e5, e6, e7, e8, e9⟩ := idx_facts t
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The two output arrays after the region. -/
theorem final3 (c : Dev nD) : (dat2 V c).arrAt 3 cfg2.N = Cert.Gcn.mm (V c main_v44) (V c main_arg4) :=
  (dat2 V c).arrAt_eq_of_cover 3 _ (fun t _ => flushed3_eq V c t) cover3
theorem final4 (c : Dev nD) : (dat2 V c).arrAt 4 cfg2.N = Cert.Gcn.mm (V c main_v44) (V c main_arg5) :=
  (dat2 V c).arrAt_eq_of_cover 4 _ (fun t _ => flushed4_eq V c t) cover4

end Cert.KernelIdeal.Reg2

end
-- ==== Proof.Reg3.lean ====
import proofs.«124393_j38714835206720_1_alg».proof.Proof.Gen.KernelIdeal.Frame
import proofs.«124393_j38714835206720_1_alg».proof.Proof.Spec
import Idealize.ShloMosaic.Lib.Pipeline.Value

/-! Region 3 (the combine kernel over ten row blocks of 5000): whatever the buffers hold when the region is entered,
    its output array ends at `relu (a + b)` of its two input arrays, entry by entry.  Point `t` adds rows
    `5000 t … 5000 t + 4999` of the two inputs, clamps below at zero and writes the same rows back; the ten blocks cover the
    50000 rows. -/

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the two loaded blocks added and clamped below at zero. -/
theorem pay_eq (x0 x1 : Vec Ideal S5000x128 .f32) :
    k3_pay1 x0 x1 = maximumf (addf x0 x1) (broadcast S5000x128 (Scalar.ofBits .f32 0x00000000#32)) := by
  unfold k3_pay1
  simp only [shapeCast_self]

/-- Entry `j` of a block's sum-and-clamp is entry `i` of the arrays' sum-and-clamp when the two blocks hold the arrays'
    entries `i` at `j`. -/
theorem blk_relu (A B : FVec Ideal S50000x128 .f32) (xa xb : Vec Ideal S5000x128 .f32) (j : S5000x128.Idx) (i : S50000x128.Idx)
    (ha : xa j = A i) (hb : xb j = B i) :
    (maximumf (addf xa xb) (broadcast S5000x128 (Scalar.ofBits .f32 0x00000000#32)) : FVec Ideal S5000x128 .f32) j
      = Cert.Gcn.relu (addf A B) i := by
  show FloatOps.maximumf (FloatOps.addf (xa j) (xb j)) (FloatOps.ofBits .f32 0x00000000#32)
    = FloatOps.maximumf (FloatOps.addf (A i) (B i)) (Cert.ReferenceIdeal.Read.val_main_call0_v0 (F := Ideal) i)
  rw [ha, hb, Cert.ReferenceIdeal.Read.val_main_call0_v0_apply, Cert.ReferenceIdeal.Read.val_main_call0_cst_apply]

/-- All three windows sit on row block `t`, column block 0, at point `t`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Input window 0's block at point `t` holds, at `j`, the array's entry at the output block's index for `j`. -/
theorem iblk_0 (c : Dev nD) (t : Fin cfg3.N) (j : S5000x128.Idx) :
    (iblk3 V c 0 t : Vec Ideal S5000x128 .f32) j = (V c main_v58 : FVec Ideal S50000x128 .f32) (((cfg3.win 2).blk t).view.emb j) := by
  obtain ⟨e0, e1, e2, e3, e4, e5⟩ := idx_facts t
  unfold iblk3
  rw [View.read_apply]
  show V c main_v58 _ = V c main_v58 _
  refine congrArg _ ?_
  funext a; apply Fin.ext
  match a with
  | ⟨0, _⟩ => show win3_0.index t (0 : Fin 2) * 5000 + 1 * (j 0).val = win3_2.index t (0 : Fin 2) * 5000 + 1 * (j 0).val; omega
  | ⟨1, _⟩ => show win3_0.index t (1 : Fin 2) * 128 + 1 * (j 1).val = win3_2.index t (1 : Fin 2) * 128 + 1 * (j 1).val; omega

/-- The same for input window 1. -/
theorem iblk_1 (c : Dev nD) (t : Fin cfg3.N) (j : S5000x128.Idx) :
    (iblk3 V c 1 t : Vec Ideal S5000x128 .f32) j = (V c main_v45_1 : FVec Ideal S50000x128 .f32) (((cfg3.win 2).blk t).view.emb j) := by
  obtain ⟨e0, e1, e2, e3, e4, e5⟩ := idx_facts t
  unfold iblk3
  rw [View.read_apply]
  show V c main_v45_1 _ = V c main_v45_1 _
  refine congrArg _ ?_
  funext a; apply Fin.ext
  match a with
  | ⟨0, _⟩ => show win3_1.index t (0 : Fin 2) * 5000 + 1 * (j 0).val = win3_2.index t (0 : Fin 2) * 5000 + 1 * (j 0).val; omega
  | ⟨1, _⟩ => show win3_1.index t (1 : Fin 2) * 128 + 1 * (j 1).val = win3_2.index t (1 : Fin 2) * 128 + 1 * (j 1).val; omega

/-- What point `t` writes back is block `t` of `relu (a + b)` of the two input arrays as the region finds them. -/
theorem flushed_eq (c : Dev nD) (t : Fin cfg3.N) :
    (dat3 V c).flushed 2 t = ((cfg3.win 2).blk t).view.read (Elt Ideal) (Cert.Gcn.relu (addf (V c main_v58) (V c main_v45_1))) := by
  show (cfg3.win 2).cut (grid3.coords t) ((dat3 V c).after 2 t) = _
  rw [after3_2]
  unfold out3_2
  rw [View.canon_unit_zero hz]
  simp only [View.ld_unit_zero (S := S5000x128) hz]
  rw [pay_eq]
  funext j
  exact blk_relu (V c main_v58) (V c main_v45_1) (iblk3 V c 0 t) (iblk3 V c 1 t) j (((cfg3.win 2).blk t).view.emb j)
    (iblk_0 V c t j) (iblk_1 V c t j)

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Row `r` lies in the block of point `r / 5000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 := ⟨⟨(i 0).val / 5000, by show _ < grid3.N; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region. -/
theorem final (c : Dev nD) : (dat3 V c).arrAt 2 cfg3.N = Cert.Gcn.relu (addf (V c main_v58) (V c main_v45_1)) :=
  (dat3 V c).arrAt_eq_of_cover 2 _ (fun t _ => flushed_eq V c t) cover

end Cert.KernelIdeal.Reg3

end
-- ==== Proof.BiasBlock.lean ====
import proofs.«124393_j38714835206720_1_alg».proof.Proof.MatBlock

/-! A row block times a weight matrix, plus a bias row.  The bias is a [1, 128] block spread over the 5000 rows of the
    block, so entry `(r, c)` gains the bias row's entry `c`; over the whole array that is the [1, 128] row spread over
    the 50000 rows. -/

set_option maxRecDepth 16384

noncomputable section

namespace Cert.KernelIdeal.MatBlock

open Cert.KernelIdeal Cert.KernelIdeal.Gen Idealize.ShloMosaic Idealize.ShloMosaic.TcCoe

/-- The bias row's entry for column `c` of the block. -/
abbrev biasAt (j : S5000x128.Idx) : S1x128.Idx := fun a => match a with
  | ⟨0, _⟩ => ⟨0, Nat.one_pos⟩
  | ⟨1, _⟩ => ⟨(j 1).val, (j 1).isLt⟩

/-- The block value of the bias kernels, as they spell it. -/
abbrev blkLin (x : Vec Ideal S5000x128 .f32) (w : Vec Ideal S128x128 .f32) (b : Vec Ideal S1x128 .f32) : FVec Ideal S5000x128 .f32 :=
  addf (blkMul x w) (broadcastTo S5000x128 b Cert.KernelIdeal.Facts₀.broadcasts_S1x128_S5000x128)

/-- The spread bias at `(r, c)` is the row's entry `c`. -/
theorem spread_apply (b : FVec Ideal S1x128 .f32) (j : S5000x128.Idx) :
    (broadcastTo S5000x128 b Cert.KernelIdeal.Facts₀.broadcasts_S1x128_S5000x128 : FVec Ideal S5000x128 .f32) j = b (biasAt j) :=
  broadcastTo_apply b Cert.KernelIdeal.Facts₀.broadcasts_S1x128_S5000x128 j (biasAt j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

/-- When the block's row `r` is row `n` of `A`, the matrix is `W` and the bias block is the row `B`, the block value's
    entry `(r, c)` is entry `(n, c)` of `A · W` plus `B` spread over the rows. -/
theorem blkLin_eq (A : Cert.Gcn.Feat) (W : Cert.Gcn.Wt) (B : FVec Ideal Cert.ReferenceIdeal.S1x128 .f32)
    (x : FVec Ideal S5000x128 .f32) (w : FVec Ideal S128x128 .f32) (b : FVec Ideal S1x128 .f32)
    (j : S5000x128.Idx) (i : Cert.ReferenceIdeal.S50000x128.Idx)
    (hx : ∀ k : Fin 128, x (rowAt j k) = A (Cert.ReferenceIdeal.Read.lidx_main_v28 i k))
    (hw : ∀ k : Fin 128, w (colAt j k) = W (Cert.ReferenceIdeal.Read.ridx_main_v28 i k))
    (hb : b (biasAt j) = B (Cert.ReferenceIdeal.Read.idx_main_v78 i)) :
    blkLin x w b j = (addf (Cert.Gcn.mm A W) (Cert.Gcn.rowsOf B) : Cert.Gcn.Feat) i := by
  show FloatOps.addf (blkMul x w j) ((broadcastTo S5000x128 b Cert.KernelIdeal.Facts₀.broadcasts_S1x128_S5000x128 : FVec Ideal S5000x128 .f32) j)
    = FloatOps.addf (Cert.Gcn.mm A W i) (Cert.Gcn.rowsOf B i)
  rw [blkMul_eq_mm A W x w j i hx hw, spread_apply, Cert.Gcn.rowsOf_apply, hb]

end Cert.KernelIdeal.MatBlock

end
-- ==== Proof.Reg4.lean ====
import proofs.«124393_j38714835206720_1_alg».proof.Proof.Gen.KernelIdeal.Frame
import proofs.«124393_j38714835206720_1_alg».proof.Proof.Spec
import proofs.«124393_j38714835206720_1_alg».proof.Proof.BiasBlock
import Idealize.ShloMosaic.Lib.Pipeline.Value

/-! Region 4 (the projection-with-bias kernel over ten row blocks of 5000): whatever the buffers hold when the region is
    entered, its output array ends at `x · w` plus the bias row spread over the rows.  Point `t` stages rows
    `5000 t … 5000 t + 4999` of `x`, the matrix and the [1, 128] bias whole, multiplies, adds the bias to every row and writes
    the same rows back; the ten blocks cover the 50000 rows. -/

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored value is the block product plus the spread bias. -/
theorem pay_eq (x0 : Vec Ideal S5000x128 .f32) (x1 : Vec Ideal S128x128 .f32) (x2 : Vec Ideal S1x128 .f32) :
    k4_pay1 x0 x1 x2 = MatBlock.blkLin x0 x1 x2 := by
  unfold k4_pay1
  simp only [shapeCast_self]

/-- At point `t` the input and the output sit on row block `t`; the matrix and the bias on their one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `r`, column `k` of the input block at point `t` is row `5000 t + r`, column `k` of the input array. -/
theorem iblk_x (c : Dev nD) (t : Fin cfg4.N) (j : S5000x128.Idx) (k : Fin 128) (i : Cert.ReferenceIdeal.S50000x128.Idx)
    (hi0 : (i 0).val = t.val * 5000 + (j 0).val) :
    (iblk4 V c 0 t : Vec Ideal S5000x128 .f32) (MatBlock.rowAt j k) = (V c main_v59 : Cert.Gcn.Feat) (Cert.ReferenceIdeal.Read.lidx_main_v28 i k) := by
  obtain ⟨e0, e1, e2, e3, e4, e5, e6, e7⟩ := idx_facts t
  unfold iblk4
  rw [View.read_apply]
  show V c main_v59 _ = V c main_v59 _
  refine congrArg _ ?_
  funext a; apply Fin.ext
  match a with
  | ⟨0, _⟩ => show win4_0.index t (0 : Fin 2) * 5000 + 1 * (j 0).val = (i 0).val; omega
  | ⟨1, _⟩ => show win4_0.index t (1 : Fin 2) * 128 + 1 * k.val = k.val; omega

/-- Row `k`, column `c` of the matrix's block is that entry of the matrix. -/
theorem iblk_w (c : Dev nD) (t : Fin cfg4.N) (j : S5000x128.Idx) (k : Fin 128) (i : Cert.ReferenceIdeal.S50000x128.Idx)
    (hi1 : (i 1).val = (j 1).val) :
    (iblk4 V c 1 t : Vec Ideal S128x128 .f32) (MatBlock.colAt j k) = (V c main_arg6 : Cert.Gcn.Wt) (Cert.ReferenceIdeal.Read.ridx_main_v28 i k) := by
  obtain ⟨e0, e1, e2, e3, e4, e5, e6, e7⟩ := idx_facts t
  unfold iblk4
  rw [View.read_apply]
  show V c main_arg6 _ = V c main_arg6 _
  refine congrArg _ ?_
  funext a; apply Fin.ext
  match a with
  | ⟨0, _⟩ => show win4_1.index t (0 : Fin 2) * 128 + 1 * k.val = k.val; omega
  | ⟨1, _⟩ => show win4_1.index t (1 : Fin 2) * 128 + 1 * (j 1).val = (i 1).val; omega

/-- Entry `c` of the bias block is entry `c` of the bias row. -/
theorem iblk_b (c : Dev nD) (t : Fin cfg4.N) (j : S5000x128.Idx) (i : Cert.ReferenceIdeal.S50000x128.Idx)
    (hi1 : (i 1).val = (j 1).val) :
    (iblk4 V c 2 t : Vec Ideal S1x128 .f32) (MatBlock.biasAt j) = (V c main_v28 : FVec Ideal Cert.ReferenceIdeal.S1x128 .f32) (Cert.ReferenceIdeal.Read.idx_main_v78 i) := by
  obtain ⟨e0, e1, e2, e3, e4, e5, e6, e7⟩ := idx_facts t
  unfold iblk4
  rw [View.read_apply]
  show V c main_v28 _ = V c main_v28 _
  refine congrArg _ ?_
  funext a; apply Fin.ext
  match a with
  | ⟨0, _⟩ => show win4_2.index t (0 : Fin 2) * 1 + 1 * 0 = 0; omega
  | ⟨1, _⟩ => show win4_2.index t (1 : Fin 2) * 128 + 1 * (j 1).val = (i 1).val; omega

/-- Where the output's block at point `t` sits in its array. -/
theorem emb3 (t : Fin cfg4.N) (j : S5000x128.Idx) :
    ((((cfg4.win 3).blk t).view.emb j) 0).val = t.val * 5000 + (j 0).val ∧ ((((cfg4.win 3).blk t).view.emb j) 1).val = (j 1).val := by
  obtain ⟨e0, e1, e2, e3, e4, e5, e6, e7⟩ := idx_facts t
  constructor
  · show win4_3.index t (0 : Fin 2) * 5000 + 1 * (j 0).val = _; omega
  · show win4_3.index t (1 : Fin 2) * 128 + 1 * (j 1).val = _; omega

/-- What point `t` writes back is block `t` of `x · w` plus the spread bias. -/
theorem flushed_eq (c : Dev nD) (t : Fin cfg4.N) :
    (dat4 V c).flushed 3 t = ((cfg4.win 3).blk t).view.read (Elt Ideal)
      (addf (Cert.Gcn.mm (V c main_v59) (V c main_arg6)) (Cert.Gcn.rowsOf (V c main_v28)) : Cert.Gcn.Feat) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  rw [pay_eq]
  funext j
  exact MatBlock.blkLin_eq (V c main_v59) (V c main_arg6) (V c main_v28) (iblk4 V c 0 t) (iblk4 V c 1 t) (iblk4 V c 2 t) j (((cfg4.win 3).blk t).view.emb j)
    (fun k => iblk_x V c t j k (((cfg4.win 3).blk t).view.emb j) (emb3 t j).1)
    (fun k => iblk_w V c t j k (((cfg4.win 3).blk t).view.emb j) (emb3 t j).2)
    (iblk_b V c t j (((cfg4.win 3).blk t).view.emb j) (emb3 t j).2)

/-- An index of the output is in point `t`'s block iff each coordinate is in the block's range on its axis. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v60).slice (win4_3.rect t)).set ↔ _
  rw [View.set_slice_whole, Rect.mem_set_unit]
  exact Iff.rfl

/-- Row `r` lies in the block of point `r / 5000`. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 := ⟨⟨(i 0).val / 5000, by show _ < grid4.N; omega⟩, rfl⟩
  obtain ⟨e0, e1, e2, e3, e4, e5, e6, e7⟩ := idx_facts t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the region. -/
theorem final (c : Dev nD) : (dat4 V c).arrAt 3 cfg4.N = (addf (Cert.Gcn.mm (V c main_v59) (V c main_arg6)) (Cert.Gcn.rowsOf (V c main_v28)) : Cert.Gcn.Feat) :=
  (dat4 V c).arrAt_eq_of_cover 3 _ (fun t _ => flushed_eq V c t) cover

end Cert.KernelIdeal.Reg4

end
-- ==== Proof.Reg5.lean ====
import proofs.«124393_j38714835206720_1_alg».proof.Proof.Gen.KernelIdeal.Frame
import proofs.«124393_j38714835206720_1_alg».proof.Proof.Spec
import proofs.«124393_j38714835206720_1_alg».proof.Proof.BiasBlock
import Idealize.ShloMosaic.Lib.Pipeline.Value

/-! Region 5 (the projection-with-bias kernel over ten row blocks of 5000): whatever the buffers hold when the region is
    entered, its output array ends at `x · w` plus the bias row spread over the rows.  Point `t` stages rows
    `5000 t … 5000 t + 4999` of `x`, the matrix and the [1, 128] bias whole, multiplies, adds the bias to every row and writes
    the same rows back; the ten blocks cover the 50000 rows. -/

set_option maxRecDepth 16384

noncomputable section

namespace Cert.KernelIdeal.Reg5

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored value is the block product plus the spread bias. -/
theorem pay_eq (x0 : Vec Ideal S5000x128 .f32) (x1 : Vec Ideal S128x128 .f32) (x2 : Vec Ideal S1x128 .f32) :
    k5_pay1 x0 x1 x2 = MatBlock.blkLin x0 x1 x2 := by
  unfold k5_pay1
  simp only [shapeCast_self]

/-- At point `t` the input and the output sit on row block `t`; the matrix and the bias on their one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `r`, column `k` of the input block at point `t` is row `5000 t + r`, column `k` of the input array. -/
theorem iblk_x (c : Dev nD) (t : Fin cfg5.N) (j : S5000x128.Idx) (k : Fin 128) (i : Cert.ReferenceIdeal.S50000x128.Idx)
    (hi0 : (i 0).val = t.val * 5000 + (j 0).val) :
    (iblk5 V c 0 t : Vec Ideal S5000x128 .f32) (MatBlock.rowAt j k) = (V c main_v73 : Cert.Gcn.Feat) (Cert.ReferenceIdeal.Read.lidx_main_v28 i k) := by
  obtain ⟨e0, e1, e2, e3, e4, e5, e6, e7⟩ := idx_facts t
  unfold iblk5
  rw [View.read_apply]
  show V c main_v73 _ = V c main_v73 _
  refine congrArg _ ?_
  funext a; apply Fin.ext
  match a with
  | ⟨0, _⟩ => show win5_0.index t (0 : Fin 2) * 5000 + 1 * (j 0).val = (i 0).val; omega
  | ⟨1, _⟩ => show win5_0.index t (1 : Fin 2) * 128 + 1 * k.val = k.val; omega

/-- Row `k`, column `c` of the matrix's block is that entry of the matrix. -/
theorem iblk_w (c : Dev nD) (t : Fin cfg5.N) (j : S5000x128.Idx) (k : Fin 128) (i : Cert.ReferenceIdeal.S50000x128.Idx)
    (hi1 : (i 1).val = (j 1).val) :
    (iblk5 V c 1 t : Vec Ideal S128x128 .f32) (MatBlock.colAt j k) = (V c main_arg7 : Cert.Gcn.Wt) (Cert.ReferenceIdeal.Read.ridx_main_v28 i k) := by
  obtain ⟨e0, e1, e2, e3, e4, e5, e6, e7⟩ := idx_facts t
  unfold iblk5
  rw [View.read_apply]
  show V c main_arg7 _ = V c main_arg7 _
  refine congrArg _ ?_
  funext a; apply Fin.ext
  match a with
  | ⟨0, _⟩ => show win5_1.index t (0 : Fin 2) * 128 + 1 * k.val = k.val; omega
  | ⟨1, _⟩ => show win5_1.index t (1 : Fin 2) * 128 + 1 * (j 1).val = (i 1).val; omega

/-- Entry `c` of the bias block is entry `c` of the bias row. -/
theorem iblk_b (c : Dev nD) (t : Fin cfg5.N) (j : S5000x128.Idx) (i : Cert.ReferenceIdeal.S50000x128.Idx)
    (hi1 : (i 1).val = (j 1).val) :
    (iblk5 V c 2 t : Vec Ideal S1x128 .f32) (MatBlock.biasAt j) = (V c main_v29 : FVec Ideal Cert.ReferenceIdeal.S1x128 .f32) (Cert.ReferenceIdeal.Read.idx_main_v78 i) := by
  obtain ⟨e0, e1, e2, e3, e4, e5, e6, e7⟩ := idx_facts t
  unfold iblk5
  rw [View.read_apply]
  show V c main_v29 _ = V c main_v29 _
  refine congrArg _ ?_
  funext a; apply Fin.ext
  match a with
  | ⟨0, _⟩ => show win5_2.index t (0 : Fin 2) * 1 + 1 * 0 = 0; omega
  | ⟨1, _⟩ => show win5_2.index t (1 : Fin 2) * 128 + 1 * (j 1).val = (i 1).val; omega

/-- Where the output's block at point `t` sits in its array. -/
theorem emb3 (t : Fin cfg5.N) (j : S5000x128.Idx) :
    ((((cfg5.win 3).blk t).view.emb j) 0).val = t.val * 5000 + (j 0).val ∧ ((((cfg5.win 3).blk t).view.emb j) 1).val = (j 1).val := by
  obtain ⟨e0, e1, e2, e3, e4, e5, e6, e7⟩ := idx_facts t
  constructor
  · show win5_3.index t (0 : Fin 2) * 5000 + 1 * (j 0).val = _; omega
  · show win5_3.index t (1 : Fin 2) * 128 + 1 * (j 1).val = _; omega

/-- What point `t` writes back is block `t` of `x · w` plus the spread bias. -/
theorem flushed_eq (c : Dev nD) (t : Fin cfg5.N) :
    (dat5 V c).flushed 3 t = ((cfg5.win 3).blk t).view.read (Elt Ideal)
      (addf (Cert.Gcn.mm (V c main_v73) (V c main_arg7)) (Cert.Gcn.rowsOf (V c main_v29)) : Cert.Gcn.Feat) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  rw [pay_eq]
  funext j
  exact MatBlock.blkLin_eq (V c main_v73) (V c main_arg7) (V c main_v29) (iblk5 V c 0 t) (iblk5 V c 1 t) (iblk5 V c 2 t) j (((cfg5.win 3).blk t).view.emb j)
    (fun k => iblk_x V c t j k (((cfg5.win 3).blk t).view.emb j) (emb3 t j).1)
    (fun k => iblk_w V c t j k (((cfg5.win 3).blk t).view.emb j) (emb3 t j).2)
    (iblk_b V c t j (((cfg5.win 3).blk t).view.emb j) (emb3 t j).2)

/-- An index of the output is in point `t`'s block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v74).slice (win5_3.rect t)).set ↔ _
  rw [View.set_slice_whole, Rect.mem_set_unit]
  exact Iff.rfl

/-- Row `r` lies in the block of point `r / 5000`. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 := ⟨⟨(i 0).val / 5000, by show _ < grid5.N; omega⟩, rfl⟩
  obtain ⟨e0, e1, e2, e3, e4, e5, e6, e7⟩ := idx_facts t
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region. -/
theorem final (c : Dev nD) : (dat5 V c).arrAt 3 cfg5.N = (addf (Cert.Gcn.mm (V c main_v73) (V c main_arg7)) (Cert.Gcn.rowsOf (V c main_v29)) : Cert.Gcn.Feat) :=
  (dat5 V c).arrAt_eq_of_cover 3 _ (fun t _ => flushed_eq V c t) cover

end Cert.KernelIdeal.Reg5

end
-- ==== Proof.KValue.lean ====
import proofs.«124393_j38714835206720_1_alg».proof.Proof.Gen.KernelIdeal.Frame
import proofs.«124393_j38714835206720_1_alg».proof.Proof.Spec
import proofs.«124393_j38714835206720_1_alg».proof.Proof.KHost
import proofs.«124393_j38714835206720_1_alg».proof.Proof.KRun
import proofs.«124393_j38714835206720_1_alg».proof.Proof.Reg0
import proofs.«124393_j38714835206720_1_alg».proof.Proof.Reg1
import proofs.«124393_j38714835206720_1_alg».proof.Proof.Reg2
import proofs.«124393_j38714835206720_1_alg».proof.Proof.Reg3
import proofs.«124393_j38714835206720_1_alg».proof.Proof.Reg4
import proofs.«124393_j38714835206720_1_alg».proof.Proof.Reg5

/-! The idealized kernel's result array as a function of the nine launch arrays.  The contents of the buffers at the ten
    segment boundaries are a fold from the launch memory; read backwards from the result, each region's output is the
    spec function of its inputs (Reg0 … Reg5), each host stretch's neighbourhood sum is `agg` of the projected features
    and the edge list (KHost), and every other buffer a region or a stretch reads — a weight matrix, an edge array, a
    bias row — still holds what the first host stretch or the launch left in it, since nothing later writes it.  The
    third layer's projection adds a zero bias row, which changes nothing (`x + 0 = x` on the extended reals), and the
    head's bias arrives as the [1, 128] reshape of the bias vector, whose spread over the rows is the reference's. -/

set_option maxRecDepth 16384

noncomputable section

namespace Cert.KernelIdeal.KValue

open Cert.KernelIdeal Cert.KernelIdeal.Gen Cert.KernelIdeal.KHost Idealize.ShloMosaic Idealize.ShloMosaic.TcCoe Idealize.SL.Sem Idealize.ShloMosaic.StableHlo

/-- Adding a zero row spread over the nodes changes nothing. -/
theorem add_zero_rows (a : Cert.Gcn.Feat) (z : FVec Ideal Cert.ReferenceIdeal.S1x128 .f32) (hz : ∀ j, z j = (0 : EReal)) :
    (addf a (Cert.Gcn.rowsOf z) : Cert.Gcn.Feat) = a := by
  funext i
  show (a i : EReal) + Cert.Gcn.rowsOf z i = a i
  rw [Cert.Gcn.rowsOf_apply, hz, add_zero]

variable (m : (ℓ : Loc nD τ sig) → Buf (Elt Ideal) ℓ) (ρ : Dev nD → PrngReg) (c : Dev nD)

/-! ## What nothing after the first host stretch writes keeps its contents -/

theorem k2_main_v3 : W2 m ρ c (Proc.devRef .tc main_v3) = W1 m ρ c (Proc.devRef .tc main_v3) :=
  W2_of_ne m ρ c main_v3 (by decide)
theorem k3_main_v3 : W3 m ρ c (Proc.devRef .tc main_v3) = W1 m ρ c (Proc.devRef .tc main_v3) :=
  ((by show StableHlo.after hostOps1 (W2 m ρ c) (Proc.devRef .tc main_v3) = W2 m ρ c (Proc.devRef .tc main_v3); host_keep) : W3 m ρ c (Proc.devRef .tc main_v3) = W2 m ρ c (Proc.devRef .tc main_v3)).trans (k2_main_v3 m ρ c)
theorem k4_main_v3 : W4 m ρ c (Proc.devRef .tc main_v3) = W1 m ρ c (Proc.devRef .tc main_v3) :=
  (W4_of_ne m ρ c main_v3 (by decide) : W4 m ρ c (Proc.devRef .tc main_v3) = W3 m ρ c (Proc.devRef .tc main_v3)).trans (k3_main_v3 m ρ c)
theorem k5_main_v3 : W5 m ρ c (Proc.devRef .tc main_v3) = W1 m ρ c (Proc.devRef .tc main_v3) :=
  (W5_of_ne m ρ c main_v3 (by decide) : W5 m ρ c (Proc.devRef .tc main_v3) = W4 m ρ c (Proc.devRef .tc main_v3)).trans (k4_main_v3 m ρ c)
theorem k6_main_v3 : W6 m ρ c (Proc.devRef .tc main_v3) = W1 m ρ c (Proc.devRef .tc main_v3) :=
  ((by show StableHlo.after hostOps3 (W5 m ρ c) (Proc.devRef .tc main_v3) = W5 m ρ c (Proc.devRef .tc main_v3); host_keep) : W6 m ρ c (Proc.devRef .tc main_v3) = W5 m ρ c (Proc.devRef .tc main_v3)).trans (k5_main_v3 m ρ c)
theorem k7_main_v3 : W7 m ρ c (Proc.devRef .tc main_v3) = W1 m ρ c (Proc.devRef .tc main_v3) :=
  (W7_of_ne m ρ c main_v3 (by decide) : W7 m ρ c (Proc.devRef .tc main_v3) = W6 m ρ c (Proc.devRef .tc main_v3)).trans (k6_main_v3 m ρ c)
theorem k8_main_v3 : W8 m ρ c (Proc.devRef .tc main_v3) = W1 m ρ c (Proc.devRef .tc main_v3) :=
  (W8_of_ne m ρ c main_v3 (by decide) : W8 m ρ c (Proc.devRef .tc main_v3) = W7 m ρ c (Proc.devRef .tc main_v3)).trans (k7_main_v3 m ρ c)

theorem k2_main_v6 : W2 m ρ c (Proc.devRef .tc main_v6) = W1 m ρ c (Proc.devRef .tc main_v6) :=
  W2_of_ne m ρ c main_v6 (by decide)
theorem k3_main_v6 : W3 m ρ c (Proc.devRef .tc main_v6) = W1 m ρ c (Proc.devRef .tc main_v6) :=
  ((by show StableHlo.after hostOps1 (W2 m ρ c) (Proc.devRef .tc main_v6) = W2 m ρ c (Proc.devRef .tc main_v6); host_keep) : W3 m ρ c (Proc.devRef .tc main_v6) = W2 m ρ c (Proc.devRef .tc main_v6)).trans (k2_main_v6 m ρ c)
theorem k4_main_v6 : W4 m ρ c (Proc.devRef .tc main_v6) = W1 m ρ c (Proc.devRef .tc main_v6) :=
  (W4_of_ne m ρ c main_v6 (by decide) : W4 m ρ c (Proc.devRef .tc main_v6) = W3 m ρ c (Proc.devRef .tc main_v6)).trans (k3_main_v6 m ρ c)
theorem k5_main_v6 : W5 m ρ c (Proc.devRef .tc main_v6) = W1 m ρ c (Proc.devRef .tc main_v6) :=
  (W5_of_ne m ρ c main_v6 (by decide) : W5 m ρ c (Proc.devRef .tc main_v6) = W4 m ρ c (Proc.devRef .tc main_v6)).trans (k4_main_v6 m ρ c)
theorem k6_main_v6 : W6 m ρ c (Proc.devRef .tc main_v6) = W1 m ρ c (Proc.devRef .tc main_v6) :=
  ((by show StableHlo.after hostOps3 (W5 m ρ c) (Proc.devRef .tc main_v6) = W5 m ρ c (Proc.devRef .tc main_v6); host_keep) : W6 m ρ c (Proc.devRef .tc main_v6) = W5 m ρ c (Proc.devRef .tc main_v6)).trans (k5_main_v6 m ρ c)
theorem k7_main_v6 : W7 m ρ c (Proc.devRef .tc main_v6) = W1 m ρ c (Proc.devRef .tc main_v6) :=
  (W7_of_ne m ρ c main_v6 (by decide) : W7 m ρ c (Proc.devRef .tc main_v6) = W6 m ρ c (Proc.devRef .tc main_v6)).trans (k6_main_v6 m ρ c)
theorem k8_main_v6 : W8 m ρ c (Proc.devRef .tc main_v6) = W1 m ρ c (Proc.devRef .tc main_v6) :=
  (W8_of_ne m ρ c main_v6 (by decide) : W8 m ρ c (Proc.devRef .tc main_v6) = W7 m ρ c (Proc.devRef .tc main_v6)).trans (k7_main_v6 m ρ c)

theorem k2_main_v27 : W2 m ρ c (Proc.devRef .tc main_v27) = W1 m ρ c (Proc.devRef .tc main_v27) :=
  W2_of_ne m ρ c main_v27 (by decide)
theorem k3_main_v27 : W3 m ρ c (Proc.devRef .tc main_v27) = W1 m ρ c (Proc.devRef .tc main_v27) :=
  ((by show StableHlo.after hostOps1 (W2 m ρ c) (Proc.devRef .tc main_v27) = W2 m ρ c (Proc.devRef .tc main_v27); host_keep) : W3 m ρ c (Proc.devRef .tc main_v27) = W2 m ρ c (Proc.devRef .tc main_v27)).trans (k2_main_v27 m ρ c)
theorem k4_main_v27 : W4 m ρ c (Proc.devRef .tc main_v27) = W1 m ρ c (Proc.devRef .tc main_v27) :=
  (W4_of_ne m ρ c main_v27 (by decide) : W4 m ρ c (Proc.devRef .tc main_v27) = W3 m ρ c (Proc.devRef .tc main_v27)).trans (k3_main_v27 m ρ c)
theorem k5_main_v27 : W5 m ρ c (Proc.devRef .tc main_v27) = W1 m ρ c (Proc.devRef .tc main_v27) :=
  (W5_of_ne m ρ c main_v27 (by decide) : W5 m ρ c (Proc.devRef .tc main_v27) = W4 m ρ c (Proc.devRef .tc main_v27)).trans (k4_main_v27 m ρ c)
theorem k6_main_v27 : W6 m ρ c (Proc.devRef .tc main_v27) = W1 m ρ c (Proc.devRef .tc main_v27) :=
  ((by show StableHlo.after hostOps3 (W5 m ρ c) (Proc.devRef .tc main_v27) = W5 m ρ c (Proc.devRef .tc main_v27); host_keep) : W6 m ρ c (Proc.devRef .tc main_v27) = W5 m ρ c (Proc.devRef .tc main_v27)).trans (k5_main_v27 m ρ c)
theorem k7_main_v27 : W7 m ρ c (Proc.devRef .tc main_v27) = W1 m ρ c (Proc.devRef .tc main_v27) :=
  (W7_of_ne m ρ c main_v27 (by decide) : W7 m ρ c (Proc.devRef .tc main_v27) = W6 m ρ c (Proc.devRef .tc main_v27)).trans (k6_main_v27 m ρ c)
theorem k8_main_v27 : W8 m ρ c (Proc.devRef .tc main_v27) = W1 m ρ c (Proc.devRef .tc main_v27) :=
  (W8_of_ne m ρ c main_v27 (by decide) : W8 m ρ c (Proc.devRef .tc main_v27) = W7 m ρ c (Proc.devRef .tc main_v27)).trans (k7_main_v27 m ρ c)

theorem k2_main_arg4 : W2 m ρ c (Proc.devRef .tc main_arg4) = W1 m ρ c (Proc.devRef .tc main_arg4) :=
  W2_of_ne m ρ c main_arg4 (by decide)
theorem k3_main_arg4 : W3 m ρ c (Proc.devRef .tc main_arg4) = W1 m ρ c (Proc.devRef .tc main_arg4) :=
  ((by show StableHlo.after hostOps1 (W2 m ρ c) (Proc.devRef .tc main_arg4) = W2 m ρ c (Proc.devRef .tc main_arg4); host_keep) : W3 m ρ c (Proc.devRef .tc main_arg4) = W2 m ρ c (Proc.devRef .tc main_arg4)).trans (k2_main_arg4 m ρ c)
theorem k4_main_arg4 : W4 m ρ c (Proc.devRef .tc main_arg4) = W1 m ρ c (Proc.devRef .tc main_arg4) :=
  (W4_of_ne m ρ c main_arg4 (by decide) : W4 m ρ c (Proc.devRef .tc main_arg4) = W3 m ρ c (Proc.devRef .tc main_arg4)).trans (k3_main_arg4 m ρ c)

theorem k2_main_arg5 : W2 m ρ c (Proc.devRef .tc main_arg5) = W1 m ρ c (Proc.devRef .tc main_arg5) :=
  W2_of_ne m ρ c main_arg5 (by decide)
theorem k3_main_arg5 : W3 m ρ c (Proc.devRef .tc main_arg5) = W1 m ρ c (Proc.devRef .tc main_arg5) :=
  ((by show StableHlo.after hostOps1 (W2 m ρ c) (Proc.devRef .tc main_arg5) = W2 m ρ c (Proc.devRef .tc main_arg5); host_keep) : W3 m ρ c (Proc.devRef .tc main_arg5) = W2 m ρ c (Proc.devRef .tc main_arg5)).trans (k2_main_arg5 m ρ c)
theorem k4_main_arg5 : W4 m ρ c (Proc.devRef .tc main_arg5) = W1 m ρ c (Proc.devRef .tc main_arg5) :=
  (W4_of_ne m ρ c main_arg5 (by decide) : W4 m ρ c (Proc.devRef .tc main_arg5) = W3 m ρ c (Proc.devRef .tc main_arg5)).trans (k3_main_arg5 m ρ c)

theorem k2_main_arg6 : W2 m ρ c (Proc.devRef .tc main_arg6) = W1 m ρ c (Proc.devRef .tc main_arg6) :=
  W2_of_ne m ρ c main_arg6 (by decide)
theorem k3_main_arg6 : W3 m ρ c (Proc.devRef .tc main_arg6) = W1 m ρ c (Proc.devRef .tc main_arg6) :=
  ((by show StableHlo.after hostOps1 (W2 m ρ c) (Proc.devRef .tc main_arg6) = W2 m ρ c (Proc.devRef .tc main_arg6); host_keep) : W3 m ρ c (Proc.devRef .tc main_arg6) = W2 m ρ c (Proc.devRef .tc main_arg6)).trans (k2_main_arg6 m ρ c)
theorem k4_main_arg6 : W4 m ρ c (Proc.devRef .tc main_arg6) = W1 m ρ c (Proc.devRef .tc main_arg6) :=
  (W4_of_ne m ρ c main_arg6 (by decide) : W4 m ρ c (Proc.devRef .tc main_arg6) = W3 m ρ c (Proc.devRef .tc main_arg6)).trans (k3_main_arg6 m ρ c)
theorem k5_main_arg6 : W5 m ρ c (Proc.devRef .tc main_arg6) = W1 m ρ c (Proc.devRef .tc main_arg6) :=
  (W5_of_ne m ρ c main_arg6 (by decide) : W5 m ρ c (Proc.devRef .tc main_arg6) = W4 m ρ c (Proc.devRef .tc main_arg6)).trans (k4_main_arg6 m ρ c)
theorem k6_main_arg6 : W6 m ρ c (Proc.devRef .tc main_arg6) = W1 m ρ c (Proc.devRef .tc main_arg6) :=
  ((by show StableHlo.after hostOps3 (W5 m ρ c) (Proc.devRef .tc main_arg6) = W5 m ρ c (Proc.devRef .tc main_arg6); host_keep) : W6 m ρ c (Proc.devRef .tc main_arg6) = W5 m ρ c (Proc.devRef .tc main_arg6)).trans (k5_main_arg6 m ρ c)
theorem k7_main_arg6 : W7 m ρ c (Proc.devRef .tc main_arg6) = W1 m ρ c (Proc.devRef .tc main_arg6) :=
  (W7_of_ne m ρ c main_arg6 (by decide) : W7 m ρ c (Proc.devRef .tc main_arg6) = W6 m ρ c (Proc.devRef .tc main_arg6)).trans (k6_main_arg6 m ρ c)

theorem k2_main_v28 : W2 m ρ c (Proc.devRef .tc main_v28) = W1 m ρ c (Proc.devRef .tc main_v28) :=
  W2_of_ne m ρ c main_v28 (by decide)
theorem k3_main_v28 : W3 m ρ c (Proc.devRef .tc main_v28) = W1 m ρ c (Proc.devRef .tc main_v28) :=
  ((by show StableHlo.after hostOps1 (W2 m ρ c) (Proc.devRef .tc main_v28) = W2 m ρ c (Proc.devRef .tc main_v28); host_keep) : W3 m ρ c (Proc.devRef .tc main_v28) = W2 m ρ c (Proc.devRef .tc main_v28)).trans (k2_main_v28 m ρ c)
theorem k4_main_v28 : W4 m ρ c (Proc.devRef .tc main_v28) = W1 m ρ c (Proc.devRef .tc main_v28) :=
  (W4_of_ne m ρ c main_v28 (by decide) : W4 m ρ c (Proc.devRef .tc main_v28) = W3 m ρ c (Proc.devRef .tc main_v28)).trans (k3_main_v28 m ρ c)
theorem k5_main_v28 : W5 m ρ c (Proc.devRef .tc main_v28) = W1 m ρ c (Proc.devRef .tc main_v28) :=
  (W5_of_ne m ρ c main_v28 (by decide) : W5 m ρ c (Proc.devRef .tc main_v28) = W4 m ρ c (Proc.devRef .tc main_v28)).trans (k4_main_v28 m ρ c)
theorem k6_main_v28 : W6 m ρ c (Proc.devRef .tc main_v28) = W1 m ρ c (Proc.devRef .tc main_v28) :=
  ((by show StableHlo.after hostOps3 (W5 m ρ c) (Proc.devRef .tc main_v28) = W5 m ρ c (Proc.devRef .tc main_v28); host_keep) : W6 m ρ c (Proc.devRef .tc main_v28) = W5 m ρ c (Proc.devRef .tc main_v28)).trans (k5_main_v28 m ρ c)
theorem k7_main_v28 : W7 m ρ c (Proc.devRef .tc main_v28) = W1 m ρ c (Proc.devRef .tc main_v28) :=
  (W7_of_ne m ρ c main_v28 (by decide) : W7 m ρ c (Proc.devRef .tc main_v28) = W6 m ρ c (Proc.devRef .tc main_v28)).trans (k6_main_v28 m ρ c)

theorem k2_main_arg7 : W2 m ρ c (Proc.devRef .tc main_arg7) = W1 m ρ c (Proc.devRef .tc main_arg7) :=
  W2_of_ne m ρ c main_arg7 (by decide)
theorem k3_main_arg7 : W3 m ρ c (Proc.devRef .tc main_arg7) = W1 m ρ c (Proc.devRef .tc main_arg7) :=
  ((by show StableHlo.after hostOps1 (W2 m ρ c) (Proc.devRef .tc main_arg7) = W2 m ρ c (Proc.devRef .tc main_arg7); host_keep) : W3 m ρ c (Proc.devRef .tc main_arg7) = W2 m ρ c (Proc.devRef .tc main_arg7)).trans (k2_main_arg7 m ρ c)
theorem k4_main_arg7 : W4 m ρ c (Proc.devRef .tc main_arg7) = W1 m ρ c (Proc.devRef .tc main_arg7) :=
  (W4_of_ne m ρ c main_arg7 (by decide) : W4 m ρ c (Proc.devRef .tc main_arg7) = W3 m ρ c (Proc.devRef .tc main_arg7)).trans (k3_main_arg7 m ρ c)
theorem k5_main_arg7 : W5 m ρ c (Proc.devRef .tc main_arg7) = W1 m ρ c (Proc.devRef .tc main_arg7) :=
  (W5_of_ne m ρ c main_arg7 (by decide) : W5 m ρ c (Proc.devRef .tc main_arg7) = W4 m ρ c (Proc.devRef .tc main_arg7)).trans (k4_main_arg7 m ρ c)
theorem k6_main_arg7 : W6 m ρ c (Proc.devRef .tc main_arg7) = W1 m ρ c (Proc.devRef .tc main_arg7) :=
  ((by show StableHlo.after hostOps3 (W5 m ρ c) (Proc.devRef .tc main_arg7) = W5 m ρ c (Proc.devRef .tc main_arg7); host_keep) : W6 m ρ c (Proc.devRef .tc main_arg7) = W5 m ρ c (Proc.devRef .tc main_arg7)).trans (k5_main_arg7 m ρ c)
theorem k7_main_arg7 : W7 m ρ c (Proc.devRef .tc main_arg7) = W1 m ρ c (Proc.devRef .tc main_arg7) :=
  (W7_of_ne m ρ c main_arg7 (by decide) : W7 m ρ c (Proc.devRef .tc main_arg7) = W6 m ρ c (Proc.devRef .tc main_arg7)).trans (k6_main_arg7 m ρ c)
theorem k8_main_arg7 : W8 m ρ c (Proc.devRef .tc main_arg7) = W1 m ρ c (Proc.devRef .tc main_arg7) :=
  (W8_of_ne m ρ c main_arg7 (by decide) : W8 m ρ c (Proc.devRef .tc main_arg7) = W7 m ρ c (Proc.devRef .tc main_arg7)).trans (k7_main_arg7 m ρ c)
theorem k9_main_arg7 : W9 m ρ c (Proc.devRef .tc main_arg7) = W1 m ρ c (Proc.devRef .tc main_arg7) :=
  ((by show StableHlo.after hostOps5 (W8 m ρ c) (Proc.devRef .tc main_arg7) = W8 m ρ c (Proc.devRef .tc main_arg7); host_keep) : W9 m ρ c (Proc.devRef .tc main_arg7) = W8 m ρ c (Proc.devRef .tc main_arg7)).trans (k8_main_arg7 m ρ c)

theorem k2_main_v29 : W2 m ρ c (Proc.devRef .tc main_v29) = W1 m ρ c (Proc.devRef .tc main_v29) :=
  W2_of_ne m ρ c main_v29 (by decide)
theorem k3_main_v29 : W3 m ρ c (Proc.devRef .tc main_v29) = W1 m ρ c (Proc.devRef .tc main_v29) :=
  ((by show StableHlo.after hostOps1 (W2 m ρ c) (Proc.devRef .tc main_v29) = W2 m ρ c (Proc.devRef .tc main_v29); host_keep) : W3 m ρ c (Proc.devRef .tc main_v29) = W2 m ρ c (Proc.devRef .tc main_v29)).trans (k2_main_v29 m ρ c)
theorem k4_main_v29 : W4 m ρ c (Proc.devRef .tc main_v29) = W1 m ρ c (Proc.devRef .tc main_v29) :=
  (W4_of_ne m ρ c main_v29 (by decide) : W4 m ρ c (Proc.devRef .tc main_v29) = W3 m ρ c (Proc.devRef .tc main_v29)).trans (k3_main_v29 m ρ c)
theorem k5_main_v29 : W5 m ρ c (Proc.devRef .tc main_v29) = W1 m ρ c (Proc.devRef .tc main_v29) :=
  (W5_of_ne m ρ c main_v29 (by decide) : W5 m ρ c (Proc.devRef .tc main_v29) = W4 m ρ c (Proc.devRef .tc main_v29)).trans (k4_main_v29 m ρ c)
theorem k6_main_v29 : W6 m ρ c (Proc.devRef .tc main_v29) = W1 m ρ c (Proc.devRef .tc main_v29) :=
  ((by show StableHlo.after hostOps3 (W5 m ρ c) (Proc.devRef .tc main_v29) = W5 m ρ c (Proc.devRef .tc main_v29); host_keep) : W6 m ρ c (Proc.devRef .tc main_v29) = W5 m ρ c (Proc.devRef .tc main_v29)).trans (k5_main_v29 m ρ c)
theorem k7_main_v29 : W7 m ρ c (Proc.devRef .tc main_v29) = W1 m ρ c (Proc.devRef .tc main_v29) :=
  (W7_of_ne m ρ c main_v29 (by decide) : W7 m ρ c (Proc.devRef .tc main_v29) = W6 m ρ c (Proc.devRef .tc main_v29)).trans (k6_main_v29 m ρ c)
theorem k8_main_v29 : W8 m ρ c (Proc.devRef .tc main_v29) = W1 m ρ c (Proc.devRef .tc main_v29) :=
  (W8_of_ne m ρ c main_v29 (by decide) : W8 m ρ c (Proc.devRef .tc main_v29) = W7 m ρ c (Proc.devRef .tc main_v29)).trans (k7_main_v29 m ρ c)
theorem k9_main_v29 : W9 m ρ c (Proc.devRef .tc main_v29) = W1 m ρ c (Proc.devRef .tc main_v29) :=
  ((by show StableHlo.after hostOps5 (W8 m ρ c) (Proc.devRef .tc main_v29) = W8 m ρ c (Proc.devRef .tc main_v29); host_keep) : W9 m ρ c (Proc.devRef .tc main_v29) = W8 m ρ c (Proc.devRef .tc main_v29)).trans (k8_main_v29 m ρ c)

/-! ## After the first host stretch -/

theorem w1_arg0 : W1 m ρ c (Proc.devRef .tc main_arg0) = m ((c.tc : Thread nD τ).loc main_arg0) := by
  show StableHlo.after hostOps0 (W0 m ρ c) (Proc.devRef .tc main_arg0) = W0 m ρ c (Proc.devRef .tc main_arg0)
  host_keep
theorem w1_arg2 : W1 m ρ c (Proc.devRef .tc main_arg2) = m ((c.tc : Thread nD τ).loc main_arg2) := by
  show StableHlo.after hostOps0 (W0 m ρ c) (Proc.devRef .tc main_arg2) = W0 m ρ c (Proc.devRef .tc main_arg2)
  host_keep
theorem w1_arg3 : W1 m ρ c (Proc.devRef .tc main_arg3) = m ((c.tc : Thread nD τ).loc main_arg3) := by
  show StableHlo.after hostOps0 (W0 m ρ c) (Proc.devRef .tc main_arg3) = W0 m ρ c (Proc.devRef .tc main_arg3)
  host_keep
theorem w1_arg4 : W1 m ρ c (Proc.devRef .tc main_arg4) = m ((c.tc : Thread nD τ).loc main_arg4) := by
  show StableHlo.after hostOps0 (W0 m ρ c) (Proc.devRef .tc main_arg4) = W0 m ρ c (Proc.devRef .tc main_arg4)
  host_keep
theorem w1_arg5 : W1 m ρ c (Proc.devRef .tc main_arg5) = m ((c.tc : Thread nD τ).loc main_arg5) := by
  show StableHlo.after hostOps0 (W0 m ρ c) (Proc.devRef .tc main_arg5) = W0 m ρ c (Proc.devRef .tc main_arg5)
  host_keep
theorem w1_arg6 : W1 m ρ c (Proc.devRef .tc main_arg6) = m ((c.tc : Thread nD τ).loc main_arg6) := by
  show StableHlo.after hostOps0 (W0 m ρ c) (Proc.devRef .tc main_arg6) = W0 m ρ c (Proc.devRef .tc main_arg6)
  host_keep
theorem w1_arg7 : W1 m ρ c (Proc.devRef .tc main_arg7) = m ((c.tc : Thread nD τ).loc main_arg7) := by
  show StableHlo.after hostOps0 (W0 m ρ c) (Proc.devRef .tc main_arg7) = W0 m ρ c (Proc.devRef .tc main_arg7)
  host_keep

theorem w1_row : W1 m ρ c (Proc.devRef .tc main_v3) = Cert.ReferenceIdeal.Read.val_main_v3 (F := Ideal) (m ((c.tc : Thread nD τ).loc main_arg1)) := host0_row (W0 m ρ c)
theorem w1_col : W1 m ρ c (Proc.devRef .tc main_v6) = Cert.ReferenceIdeal.Read.val_main_v6 (F := Ideal) (m ((c.tc : Thread nD τ).loc main_arg1)) := host0_col (W0 m ρ c)
theorem w1_nrm : W1 m ρ c (Proc.devRef .tc main_v27) = Cert.ReferenceIdeal.Read.val_main_v27 (F := Ideal) (m ((c.tc : Thread nD τ).loc main_arg1)) := host0_nrm (W0 m ρ c)

/-! ## The first layer -/

theorem h1 : W2 m ρ c (Proc.devRef .tc main_v30_0) = Cert.Gcn.mm (m ((c.tc : Thread nD τ).loc main_arg0)) (m ((c.tc : Thread nD τ).loc main_arg2)) := by
  refine (W2_arr m ρ c 3).trans ?_
  rw [Reg0.final3 (V1 m ρ) c]
  show Cert.Gcn.mm (W1 m ρ c (Proc.devRef .tc main_arg0)) (W1 m ρ c (Proc.devRef .tc main_arg2)) = _
  rw [w1_arg0, w1_arg2]

theorem xr1 : W2 m ρ c (Proc.devRef .tc main_v30_1) = Cert.Gcn.mm (m ((c.tc : Thread nD τ).loc main_arg0)) (m ((c.tc : Thread nD τ).loc main_arg3)) := by
  refine (W2_arr m ρ c 4).trans ?_
  rw [Reg0.final4 (V1 m ρ) c]
  show Cert.Gcn.mm (W1 m ρ c (Proc.devRef .tc main_arg0)) (W1 m ρ c (Proc.devRef .tc main_arg3)) = _
  rw [w1_arg0, w1_arg3]

theorem a1 : W3 m ρ c (Proc.devRef .tc main_v43) = Cert.Gcn.agg (Cert.Gcn.mm (m ((c.tc : Thread nD τ).loc main_arg0)) (m ((c.tc : Thread nD τ).loc main_arg2))) (m ((c.tc : Thread nD τ).loc main_arg1)) := by
  show StableHlo.after hostOps1 (W2 m ρ c) (Proc.devRef .tc main_v43) = _
  rw [host1_agg (W2 m ρ c), h1, k2_main_v3, k2_main_v6, k2_main_v27, w1_row, w1_col, w1_nrm, Cert.Gcn.agg_eq]

theorem x1 : W4 m ρ c (Proc.devRef .tc main_v44) = (Cert.Gcn.layer (m ((c.tc : Thread nD τ).loc main_arg0)) (m ((c.tc : Thread nD τ).loc main_arg1)) (m ((c.tc : Thread nD τ).loc main_arg2)) (m ((c.tc : Thread nD τ).loc main_arg3))) := by
  refine (W4_arr m ρ c 2).trans ?_
  rw [Reg1.final (V3 m ρ) c]
  show Cert.Gcn.relu (addf (W3 m ρ c (Proc.devRef .tc main_v43)) (W3 m ρ c (Proc.devRef .tc main_v30_1))) = _
  rw [a1, (by show StableHlo.after hostOps1 (W2 m ρ c) (Proc.devRef .tc main_v30_1) = W2 m ρ c (Proc.devRef .tc main_v30_1); host_keep : W3 m ρ c (Proc.devRef .tc main_v30_1) = W2 m ρ c (Proc.devRef .tc main_v30_1)), xr1]
  rfl

/-! ## The second layer -/

theorem h2 : W5 m ρ c (Proc.devRef .tc main_v45_0) = Cert.Gcn.mm (Cert.Gcn.layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine (W5_arr m ρ c 3).trans ?_
  rw [Reg2.final3 (V4 m ρ) c]
  show Cert.Gcn.mm (W4 m ρ c (Proc.devRef .tc main_v44)) (W4 m ρ c (Proc.devRef .tc main_arg4)) = _
  rw [x1, k4_main_arg4, w1_arg4]

theorem xr2 : W5 m ρ c (Proc.devRef .tc main_v45_1) = Cert.Gcn.mm (Cert.Gcn.layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5)) := by
  refine (W5_arr m ρ c 4).trans ?_
  rw [Reg2.final4 (V4 m ρ) c]
  show Cert.Gcn.mm (W4 m ρ c (Proc.devRef .tc main_v44)) (W4 m ρ c (Proc.devRef .tc main_arg5)) = _
  rw [x1, k4_main_arg5, w1_arg5]

theorem a2 : W6 m ρ c (Proc.devRef .tc main_v58) = Cert.Gcn.agg (Cert.Gcn.mm (Cert.Gcn.layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1)) := by
  show StableHlo.after hostOps3 (W5 m ρ c) (Proc.devRef .tc main_v58) = _
  rw [host3_agg (W5 m ρ c), h2, k5_main_v3, k5_main_v6, k5_main_v27, w1_row, w1_col, w1_nrm, Cert.Gcn.agg_eq]

theorem x2 : W7 m ρ c (Proc.devRef .tc main_v59) = (Cert.Gcn.layer (Cert.Gcn.layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) := by
  refine (W7_arr m ρ c 2).trans ?_
  rw [Reg3.final (V6 m ρ) c]
  show Cert.Gcn.relu (addf (W6 m ρ c (Proc.devRef .tc main_v58)) (W6 m ρ c (Proc.devRef .tc main_v45_1))) = _
  rw [a2, (by show StableHlo.after hostOps3 (W5 m ρ c) (Proc.devRef .tc main_v45_1) = W5 m ρ c (Proc.devRef .tc main_v45_1); host_keep : W6 m ρ c (Proc.devRef .tc main_v45_1) = W5 m ρ c (Proc.devRef .tc main_v45_1)), xr2]
  rfl

/-! ## The third layer: its projection's bias row is zero -/

theorem h3 : W8 m ρ c (Proc.devRef .tc main_v60) = Cert.Gcn.mm (Cert.Gcn.layer (Cert.Gcn.layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg6)) := by
  refine (W8_arr m ρ c 3).trans ?_
  rw [Reg4.final (V7 m ρ) c]
  show (addf (Cert.Gcn.mm (W7 m ρ c (Proc.devRef .tc main_v59)) (W7 m ρ c (Proc.devRef .tc main_arg6))) (Cert.Gcn.rowsOf (W7 m ρ c (Proc.devRef .tc main_v28))) : Cert.Gcn.Feat) = _
  rw [x2, k7_main_arg6, w1_arg6, k7_main_v28]
  exact add_zero_rows _ _ (fun j => host0_zero (W0 m ρ c) j)

theorem a3 : W9 m ρ c (Proc.devRef .tc main_v73) = Cert.Gcn.agg (Cert.Gcn.mm (Cert.Gcn.layer (Cert.Gcn.layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg6))) (m ((c.tc : Thread nD τ).loc main_arg1)) := by
  show StableHlo.after hostOps5 (W8 m ρ c) (Proc.devRef .tc main_v73) = _
  rw [host5_agg (W8 m ρ c), h3, k8_main_v3, k8_main_v6, k8_main_v27, w1_row, w1_col, w1_nrm, Cert.Gcn.agg_eq]

/-! ## The head -/

/-- The [1, 128] reshape of the bias vector, spread over the rows, is the bias spread over the rows. -/
theorem bias_rows : Cert.Gcn.rowsOf (W9 m ρ c (Proc.devRef .tc main_v29)) = Cert.Gcn.biasRows (m ((c.tc : Thread nD τ).loc main_arg8)) := by
  rw [k9_main_v29, Cert.Gcn.biasRows_eq]
  refine congrArg Cert.Gcn.rowsOf (funext fun j => ?_)
  rw [Cert.ReferenceIdeal.Read.val_main_v77_apply]
  exact host0_bias (W0 m ρ c) j

/-- The result array is the network of the launch arrays. -/
theorem result : W10 m ρ c (Proc.devRef .tc main_v74)
    = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W10_arr m ρ c 3).trans ?_
  rw [Reg5.final (V9 m ρ) c]
  show (addf (Cert.Gcn.mm (W9 m ρ c (Proc.devRef .tc main_v73)) (W9 m ρ c (Proc.devRef .tc main_arg7))) (Cert.Gcn.rowsOf (W9 m ρ c (Proc.devRef .tc main_v29))) : Cert.Gcn.Feat) = _
  rw [a3, k9_main_arg7, w1_arg7, bias_rows]
  rfl

/-- The run, read: the result array at the network of the launch arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v74)
        = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Cert.KernelIdeal.Named.run_named m ρ)

end Cert.KernelIdeal.KValue

end
-- ==== Proof.lean ====
/- Three graph-convolution layers and a linear head over 50000 nodes with 128 features, 600000 edges and a self loop at
   every node.  With `row`, `col` the edges' end points, `deg` the number of edges into a node and
   `norm e = deg(row e)^(-1/2) · deg(col e)^(-1/2)`, a layer sends node features `x` to `agg (x · W)`, where `agg h` adds
   `norm e · h[row e]` into row `col e` for every edge; the first two layers add the residual `x · R` and clamp below at
   zero, the third has neither, and the head is `x ↦ x · Wh + bh`.
   The kernel program computes the products, the residual sums with their clamps, and the head in six tiled kernels —
   ten row blocks of 5000 nodes each, the operands narrowed to bf16 before the product — and leaves the gathers and
   scatter-adds of `agg` to host operations between the kernels; the reference is host operations throughout.  Over the
   extended reals the narrowing is the identity, a block of a product is the product's block (the contraction runs over
   the 128 features, inside every block), the ten blocks cover the rows, the third layer's zero bias adds nothing, and
   both programs apply the same `agg` to equal arrays.  So both end at ONE function `Cert.Gcn.net` of the nine argument
   arrays (Proof/Spec.lean): the kernel by Proof/KValue.lean over the per-region lemmas Proof/Reg0 … Reg5, the reference
   by its run read stage by stage.  No step uses a law that fails at an infinity, so the precondition is not opened. -/
import proofs.«124393_j38714835206720_1_alg».proof.Defs
import proofs.«124393_j38714835206720_1_alg».proof.Proof.Gen.Kernel
import proofs.«124393_j38714835206720_1_alg».proof.Proof.Gen.Kernel.Skeleton
import proofs.«124393_j38714835206720_1_alg».proof.Proof.Gen.Kernel.Launch
import proofs.«124393_j38714835206720_1_alg».proof.Proof.Gen.Kernel.Points
import proofs.«124393_j38714835206720_1_alg».proof.Proof.Gen.Kernel.Frame
import proofs.«124393_j38714835206720_1_alg».proof.Proof.Gen.KernelIdeal
import proofs.«124393_j38714835206720_1_alg».proof.Proof.Gen.KernelIdeal.Skeleton
import proofs.«124393_j38714835206720_1_alg».proof.Proof.Gen.KernelIdeal.Launch
import proofs.«124393_j38714835206720_1_alg».proof.Proof.Gen.KernelIdeal.Points
import proofs.«124393_j38714835206720_1_alg».proof.Proof.Gen.KernelIdeal.Frame
import proofs.«124393_j38714835206720_1_alg».proof.Proof.Gen.ReferenceIdeal
import proofs.«124393_j38714835206720_1_alg».proof.Proof.Gen.ReferenceIdeal.Run
import proofs.«124393_j38714835206720_1_alg».proof.Proof.Gen.ReferenceIdeal.Read
import proofs.«124393_j38714835206720_1_alg».proof.Proof.Gen.Pre_finite_inputs
import proofs.«124393_j38714835206720_1_alg».proof.Proof.Spec
import proofs.«124393_j38714835206720_1_alg».proof.Proof.KValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at the network of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8⟩ := hagree c
  rw [Cert.ReferenceIdeal.Read.val_main_v79_eq, Cert.Gcn.ref_net, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
